-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : IVec S100000 32) (main_arg3 : FVec F S64x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S104000x64 : Shape := ⟨2, ![104000, 64]⟩
abbrev S104000 : Shape := ⟨1, ![104000]⟩
abbrev S26x1x4000 : Shape := ⟨3, ![26, 1, 4000]⟩
abbrev S1x128 : Shape := ⟨2, ![1, 128]⟩
abbrev S2x512x128 : Shape := ⟨3, ![2, 512, 128]⟩
abbrev S4000x64 : Shape := ⟨2, ![4000, 64]⟩
abbrev S1x1x4000 : Shape := ⟨3, ![1, 1, 4000]⟩
abbrev S1x512x128 : Shape := ⟨3, ![1, 512, 128]⟩
abbrev S512x128 : Shape := ⟨2, ![512, 128]⟩
abbrev S4000x128 : Shape := ⟨2, ![4000, 128]⟩
abbrev S1x4000 : Shape := ⟨2, ![1, 4000]⟩
abbrev S512x4000 : Shape := ⟨2, ![512, 4000]⟩
abbrev S512x1 : Shape := ⟨2, ![512, 1]⟩
abbrev S1x1 : Shape := ⟨2, ![1, 1]⟩

abbrev nBuf : Space → Nat
  | .hbm => 39
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S_, .f32⟩
  | .hbm, ⟨23, _⟩ => ⟨S104000x64, .f32⟩
  | .hbm, ⟨24, _⟩ => ⟨S1200000x1, .i32⟩
  | .hbm, ⟨25, _⟩ => ⟨S104000x64, .f32⟩
  | .hbm, ⟨26, _⟩ => ⟨S_, .i32⟩
  | .hbm, ⟨27, _⟩ => ⟨S_, .i32⟩
  | .hbm, ⟨28, _⟩ => ⟨S104000, .i32⟩
  | .hbm, ⟨29, _⟩ => ⟨S26x1x4000, .i32⟩
  | .hbm, ⟨30, _⟩ => ⟨S1x128, .f32⟩
  | .hbm, ⟨31, _⟩ => ⟨S1x128, .f32⟩
  | .hbm, ⟨32, _⟩ => ⟨S2x512x128, .f32⟩
  | .hbm, ⟨33, _⟩ => ⟨S_, .f32⟩
  | .hbm, ⟨34, _⟩ => ⟨S512x128, .f32⟩
  | .hbm, ⟨35, _⟩ => ⟨S512x1, .f32⟩
  | .hbm, ⟨36, _⟩ => ⟨S1x1, .f32⟩
  | .hbm, ⟨37, _⟩ => ⟨S512x1, .f32⟩
  | .hbm, ⟨38, _⟩ => ⟨S512x1, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S1x1x4000, .i32⟩
  | .local _ .vmem, ⟨5, _⟩ => ⟨S1x1x4000, .i32⟩
  | .local _ .vmem, ⟨6, _⟩ => ⟨S64x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x512x128, .f32⟩
  | .local _ .vmem, ⟨11, _⟩ => ⟨S1x512x128, .f32⟩
  | .local _ .vmem, ⟨12, _⟩ => ⟨S512x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 13], ![false, false]⟩

def k0_cond2 (i : grid0.Coords) : BitVec 1 :=
  let arg1 : BitVec 32 := BitVec.ofNat 32 (i 1).val
  let c12_i32 : BitVec 32 := 12#32
  let v41 : BitVec 1 := Scalar.cmpi .eq arg1 c12_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c24_i32 : BitVec 32 := 24#32
  let v2 : BitVec 32 := Scalar.minsi v1 c24_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S104000x64 : S_.BroadcastsInDim S104000x64 (![] : Fin 0 → Fin S104000x64.rank)
  pads_S100000_S104000_040000 : S100000.Pads (![0] : Fin 1 → Nat) ![4000] ![0] S104000
  h_S_ : 0 < S_.numel
  shapeCasts_S104000_S26x1x4000 : S104000.ShapeCasts S26x1x4000
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x1x4000 : S1x1x4000.ShapeCasts S1x1x4000
  shapeCasts_S1x1x4000_S1x4000 : S1x1x4000.ShapeCasts S1x4000
  iota_S512x4000_d0_w32 : S512x4000.Iotas .tc 32 [0]
  broadcasts_S1x4000_S512x4000 : S1x4000.Broadcasts S512x4000
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  reducesTo_S2x512x128_S512x128_d0 : S2x512x128.ReducesTo [0] S512x128
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x64_S1200000x1_S1200000x64_1_0_n_n_0_1_164_wf : GatherDims.WF S100000x64 S1200000x1 S1200000x64 [1] [0] [] [0] [] 1 ![1, 64]
  scatter_S104000x64_S1200000x1_S1200000x64_1_0_0_1_wf : ScatterDims.WF S104000x64 S1200000x1 S1200000x64 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  dot_S512x4000_S4000x128_S512x128_1_0_0_1_n_n_wf : DotDims.WF S512x4000 S4000x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S104000x64.size a
  hwx0_1 : ∀ i : grid0.Coords, EltTy.bits .f32 = 32 ∨ (Rect.block (s := S104000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4000.size a ≤ S26x1x4000.size a
  hwx0_2 : ∀ i : grid0.Coords, EltTy.bits .i32 = 32 ∨ (Rect.block (s := S26x1x4000) S1x1x4000.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S2x512x128.size a
  hwx0_7 : ∀ i : grid0.Coords, EltTy.bits .f32 = 32 ∨ (Rect.block (s := S2x512x128) S1x512x128.size (cc0_transform_7 i) (hinb0_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S104000x64_S1200000x1_S1200000x64_1_0_0_1 : ScatterDims S104000x64 S1200000x1 S1200000x64 where
  updateWindowDims := [1]
  insertedWindowDims := [0]
  scatterDimsToOperandDims := [0]
  indexVectorDim := 1
  wf := scatter_S104000x64_S1200000x1_S1200000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S512x4000_S4000x128_S512x128_1_0_0_1_n_n : DotDims S512x4000 S4000x128 S512x128 where
  lhsContracting := [1]
  rhsContracting := [0]
  lhsNonContracting := [0]
  rhsNonContracting := [1]
  lhsBatch := []
  rhsBatch := []
  wf := dot_S512x4000_S4000x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x4000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000x128 : Shape := ⟨2, ![100000, 128]⟩
abbrev S1x128 : Shape := ⟨2, ![1, 128]⟩
abbrev S512x128 : Shape := ⟨2, ![512, 128]⟩
abbrev S100000x1 : Shape := ⟨2, ![100000, 1]⟩
abbrev S512x1 : Shape := ⟨2, ![512, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S_, .f32⟩
  | .hbm, ⟨23, _⟩ => ⟨S100000x64, .f32⟩
  | .hbm, ⟨24, _⟩ => ⟨S1200000x1, .i32⟩
  | .hbm, ⟨25, _⟩ => ⟨S100000x64, .f32⟩
  | .hbm, ⟨26, _⟩ => ⟨S100000x64, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S512x128, .f32⟩
  | .hbm, ⟨40, _⟩ => ⟨S100000x1, .i32⟩
  | .hbm, ⟨41, _⟩ => ⟨S512x128, .f32⟩
  | .hbm, ⟨42, _⟩ => ⟨S512x1, .f32⟩
  | .hbm, ⟨43, _⟩ => ⟨S1x1, .f32⟩
  | .hbm, ⟨44, _⟩ => ⟨S512x1, .f32⟩
  | .hbm, ⟨45, _⟩ => ⟨S512x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x1_S512x1_1_0_0_1_n_n_wf : DotDims.WF S512x128 S128x1 S512x1 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KPieces.lean ====
/-
  What one run of the kernel body leaves behind, case by case.

  The body adds the tile's pooled contribution P to the accumulator held in the scratch buffer. At the first tile of a
  half the accumulator is first reset to zero, so the body leaves 0 + P; at every other tile it leaves acc + P of the
  accumulator acc the tile before left; at the last tile of a half it also copies that sum, as a 1 × 512 × 128 block,
  into the output's staging buffer.
-/
import proofs.«424827_j23210003268004_3_alg».proof.Proof.Gen.KernelIdeal.Frame
import Idealize.ShloMosaic.Lib.Pipeline.Value
import Idealize.ShloMosaic.Lib.Tactic

set_option maxRecDepth 16384

noncomputable section

namespace Cert.KernelIdeal.Gin

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a half: the accumulator ends at (zero block) + P. -/
theorem sout_A (c : Dev nD) (i : grid0.Coords) (arg2 : Memref sig .tc .vmem S4000x64 .f32) (harg2 : arg2.IsWhole) (arg3 : Memref sig .tc .vmem S4000x64 .f32) (harg3 : arg3.IsWhole) (arg4 : Memref sig .tc .vmem S1x1x4000 .i32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x512x128 .f32) (harg9 : arg9.IsWhole) (arg10 : Memref sig .tc .vmem S512x128 .f32) (harg10 : arg10.IsWhole) (hc0 : cond0_0 i) (hc1 : ¬cond0_1 i) (x0 : Vec F S4000x64 .f32) (x1 : Vec F S4000x64 .f32) (x2 : Vec F S1x1x4000 .i32) (x3 : Vec F S64x128 .f32) (x4 : Vec F S1x128 .f32) (x5 : Vec F S128x128 .f32) (x6 : Vec F S1x128 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (k0_pay4 x0 x1 x3 x4 x5 x6 x2) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x128) hz2]
  simp only [View.readAt_eq_ld, harg2.read_unread, harg3.read_unread, harg4.read_unread, harg5.read_unread, harg6.read_unread, harg7.read_unread, harg8.read_unread, harg9.read_unread, harg10.read_unread, View.ld_unit_zero (S := S4000x64) hz2, View.ld_unit_zero (S := S64x128) hz2, View.ld_unit_zero (S := S1x128) hz2, View.ld_unit_zero (S := S128x128) hz2, View.ld_unit_zero (S := S512x128) hz2, View.ld_unit_zero (S := S1x1x4000) hz3, View.ld_unit_zero (S := S1x512x128) hz3, View.readCov_unit_zero (S := S512x128) _ hz2]

/-- A middle tile: the accumulator ends at (what the tile before left) + P. -/
theorem sout_B (c : Dev nD) (i : grid0.Coords) (arg2 : Memref sig .tc .vmem S4000x64 .f32) (harg2 : arg2.IsWhole) (arg3 : Memref sig .tc .vmem S4000x64 .f32) (harg3 : arg3.IsWhole) (arg4 : Memref sig .tc .vmem S1x1x4000 .i32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x512x128 .f32) (harg9 : arg9.IsWhole) (arg10 : Memref sig .tc .vmem S512x128 .f32) (harg10 : arg10.IsWhole) (hc0 : ¬cond0_0 i) (hc1 : ¬cond0_1 i) (x0 : Vec F S4000x64 .f32) (x1 : Vec F S4000x64 .f32) (x2 : Vec F S1x1x4000 .i32) (x3 : Vec F S64x128 .f32) (x4 : Vec F S1x128 .f32) (x5 : Vec F S128x128 .f32) (x6 : Vec F S1x128 .f32) (xs0 : Vec F S512x128 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (k0_pay4 x0 x1 x3 x4 x5 x6 x2) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4000x64) hz2, View.ld_unit_zero (S := S64x128) hz2, View.ld_unit_zero (S := S1x128) hz2, View.ld_unit_zero (S := S128x128) hz2, View.ld_unit_zero (S := S512x128) hz2, View.ld_unit_zero (S := S1x1x4000) hz3, View.ld_unit_zero (S := S1x512x128) hz3, View.readCov_unit_zero (S := S512x128) _ hz2]

/-- The last tile of a half: the accumulator ends at (what the tile before left) + P, -/
theorem sout_C (c : Dev nD) (i : grid0.Coords) (arg2 : Memref sig .tc .vmem S4000x64 .f32) (harg2 : arg2.IsWhole) (arg3 : Memref sig .tc .vmem S4000x64 .f32) (harg3 : arg3.IsWhole) (arg4 : Memref sig .tc .vmem S1x1x4000 .i32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x512x128 .f32) (harg9 : arg9.IsWhole) (arg10 : Memref sig .tc .vmem S512x128 .f32) (harg10 : arg10.IsWhole) (hc0 : ¬cond0_0 i) (hc1 : cond0_1 i) (x0 : Vec F S4000x64 .f32) (x1 : Vec F S4000x64 .f32) (x2 : Vec F S1x1x4000 .i32) (x3 : Vec F S64x128 .f32) (x4 : Vec F S1x128 .f32) (x5 : Vec F S128x128 .f32) (x6 : Vec F S1x128 .f32) (xs0 : Vec F S512x128 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (k0_pay4 x0 x1 x3 x4 x5 x6 x2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S4000x64) hz2, View.ld_unit_zero (S := S64x128) hz2, View.ld_unit_zero (S := S1x128) hz2, View.ld_unit_zero (S := S128x128) hz2, View.ld_unit_zero (S := S512x128) hz2, View.ld_unit_zero (S := S1x1x4000) hz3, View.ld_unit_zero (S := S1x512x128) hz3, View.readCov_unit_zero (S := S512x128) _ hz2]

/-- and the output's staging buffer holds that sum as a 1 × 512 × 128 block. -/
theorem out_C (c : Dev nD) (i : grid0.Coords) (arg2 : Memref sig .tc .vmem S4000x64 .f32) (harg2 : arg2.IsWhole) (arg3 : Memref sig .tc .vmem S4000x64 .f32) (harg3 : arg3.IsWhole) (arg4 : Memref sig .tc .vmem S1x1x4000 .i32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x512x128 .f32) (harg9 : arg9.IsWhole) (arg10 : Memref sig .tc .vmem S512x128 .f32) (harg10 : arg10.IsWhole) (hc0 : ¬cond0_0 i) (hc1 : cond0_1 i) (x0 : Vec F S4000x64 .f32) (x1 : Vec F S4000x64 .f32) (x2 : Vec F S1x1x4000 .i32) (x3 : Vec F S64x128 .f32) (x4 : Vec F S1x128 .f32) (x5 : Vec F S128x128 .f32) (x6 : Vec F S1x128 .f32) (xs0 : Vec F S512x128 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 (k0_pay1 (k0_pay4 x0 x1 x3 x4 x5 x6 x2) xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S4000x64) hz2, View.ld_unit_zero (S := S64x128) hz2, View.ld_unit_zero (S := S1x128) hz2, View.ld_unit_zero (S := S128x128) hz2, View.ld_unit_zero (S := S512x128) hz2, View.ld_unit_zero (S := S1x1x4000) hz3, View.ld_unit_zero (S := S1x512x128) hz3, View.readCov_unit_zero (S := S512x128) _ hz2]

end Cert.KernelIdeal.Gin

end
-- ==== Proof.KInv.lean ====
/-
  The accumulator after each grid point, and what each half writes back.

  The 26 grid points are two halves of 13 tiles. After point n the scratch accumulator holds, of the half n belongs to,
  the contributions of its tiles up to n, added in order onto the zero block: a reset at the first tile of a half, one
  addition per tile. At the last tile of a half the output's staging buffer receives the accumulator as a 1 × 512 × 128
  block. Over the extended reals the ordered chain is the plain sum of the contributions.
-/
import proofs.«424827_j23210003268004_3_alg».proof.Proof.KPieces
import Idealize.ShloMosaic.PureOps.Ideal.Laws
import Mathlib.Algebra.BigOperators.Intervals
import Mathlib.Algebra.BigOperators.Fin

set_option maxRecDepth 16384

noncomputable section

open scoped BigOperators

namespace Cert.KernelIdeal.Gin

open Cert.KernelIdeal Cert.KernelIdeal.Gen Idealize.ShloMosaic Idealize.ShloMosaic.TcCoe Idealize.SL.Sem
open Idealize.ShloMosaic.Pipeline (Dat)

section AnyValues

variable {F : FTy → Type} [FloatOps F]
variable (m : (ℓ : Loc nD τ sig) → Buf (Elt F) ℓ)

/-- Tile `t`'s contribution to the pooled rows: the body's product of the tile's blocks. -/
abbrev part (c : Dev nD) (t : Fin cfg0.N) : FVec F S512x128 .f32 :=
  k0_pay4 (iblk m c 0 t) (iblk m c 1 t) (iblk m c 3 t) (iblk m c 4 t) (iblk m c 5 t) (iblk m c 6 t) (iblk m c 2 t)

/-- The accumulator after point `n`: reset-then-add at the first tile of a half, add otherwise. -/
def acc (c : Dev nD) : (n : ℕ) → n < cfg0.N → Vec F S512x128 .f32
  | 0, h => k0_pay1 (part m c ⟨0, h⟩) (k0_pay3 (F := F))
  | n + 1, h =>
    if (n + 1) % 13 = 0 then k0_pay1 (part m c ⟨n + 1, h⟩) (k0_pay3 (F := F))
    else k0_pay1 (part m c ⟨n + 1, h⟩) (acc c n (Nat.lt_of_succ_lt h))

theorem acc_zero (c : Dev nD) (h : 0 < cfg0.N) : acc m c 0 h = k0_pay1 (part m c ⟨0, h⟩) (k0_pay3 (F := F)) := rfl

theorem acc_succ_first (c : Dev nD) (n : ℕ) (h : n + 1 < cfg0.N) (h0 : (n + 1) % 13 = 0) :
    acc m c (n + 1) h = k0_pay1 (part m c ⟨n + 1, h⟩) (k0_pay3 (F := F)) := by
  rw [acc, if_pos h0]

theorem acc_succ_next (c : Dev nD) (n : ℕ) (h : n + 1 < cfg0.N) (h0 : ¬(n + 1) % 13 = 0) :
    acc m c (n + 1) h = k0_pay1 (part m c ⟨n + 1, h⟩) (acc m c n (Nat.lt_of_succ_lt h)) := by
  rw [acc, if_neg h0]

/-- The scratch contents the frame records after point `n` are the accumulator: by induction on the point, the case of
    each point decided by its position in its half. -/
theorem scratch_eq (c : Dev nD) : ∀ (n : ℕ) (h : n < cfg0.N), (outsAt0 m c n h).2 = acc m c n h
  | 0, h => by
    rw [outsAt0_A m c ⟨0, h⟩ rfl (by show ¬(0 % 13 = 12); decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)
  | n + 1, h => by
    by_cases h0 : (n + 1) % 13 = 0
    · have h1 : ¬(n + 1) % 13 = 12 := by omega
      rw [outsAt0_A m c ⟨n + 1, h⟩ h0 h1, acc_succ_first m c n h h0]
      dsimp only
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)
    · by_cases h1 : (n + 1) % 13 = 12
      · rw [outsAt0_C m c ⟨n + 1, h⟩ h0 h1, acc_succ_next m c n h h0]
        dsimp only
        refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) _).trans ?_
        show k0_pay1 _ (outsAt0 m c n _).2 = k0_pay1 _ (acc m c n _)
        rw [scratch_eq c n]
      · rw [outsAt0_B m c ⟨n + 1, h⟩ h0 h1, acc_succ_next m c n h h0]
        dsimp only
        refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) _).trans ?_
        show k0_pay1 _ (outsAt0 m c n _).2 = k0_pay1 _ (acc m c n _)
        rw [scratch_eq c n]

/-- At the last tile of a half the output's staging buffer holds the accumulator, as a 1 × 512 × 128 block. -/
theorem out_eq (c : Dev nD) (t : Fin cfg0.N) (h12 : t.val % 13 = 12) :
    (outsAt0 m c t.val t.isLt).1 = k0_pay2 (acc m c t.val t.isLt) := by
  obtain ⟨n, h⟩ := t
  cases n with
  | zero => exact absurd h12 (by show ¬(0 % 13 = 12); decide)
  | succ n =>
    have h0 : ¬(n + 1) % 13 = 0 := by dsimp only at h12; omega
    rw [outsAt0_C m c ⟨n + 1, h⟩ h0 h12, acc_succ_next m c n h h0]
    dsimp only
    refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) _).trans ?_
    show k0_pay2 (k0_pay1 _ (outsAt0 m c n _).2) = k0_pay2 (k0_pay1 _ (acc m c n _))
    rw [scratch_eq m c n]

end AnyValues

/-! ## Over the extended reals the accumulator is a sum -/

section Ideal

variable (m : (ℓ : Loc nD τ sig) → Buf (Elt Ideal) ℓ)

/-- Tile `n`'s contribution at an entry, zero for an `n` that is no grid point. -/
def partN (c : Dev nD) (n : ℕ) (j : S512x128.Idx) : EReal :=
  if h : n < cfg0.N then part m c ⟨n, h⟩ j else 0

theorem partN_of_lt (c : Dev nD) (n : ℕ) (h : n < cfg0.N) (j : S512x128.Idx) : partN m c n j = part m c ⟨n, h⟩ j := by
  rw [partN, dif_pos h]

/-- Adding a contribution onto an accumulator, entry by entry. -/
theorem pay1_apply (P A : S512x128.Idx → EReal) (j : S512x128.Idx) : k0_pay1 (F := Ideal) P A j = A j + P j := by
  unfold k0_pay1
  rw [shapeCast_self]
  rfl

/-- The zero block, entry by entry. -/
theorem pay3_apply (j : S512x128.Idx) : k0_pay3 (F := Ideal) j = 0 := by
  unfold k0_pay3
  rw [shapeCast_self]
  exact Ideal.ofBits_zero_f32

/-- After point `n` the accumulator is the sum of the contributions of the tiles of `n`'s half up to `n`. -/
theorem acc_apply (c : Dev nD) : ∀ (n : ℕ) (h : n < cfg0.N) (j : S512x128.Idx),
    acc m c n h j = ∑ i ∈ Finset.range (n % 13 + 1), partN m c (n - n % 13 + i) j
  | 0, h, j => by
    rw [acc_zero, pay1_apply, pay3_apply, zero_add]
    simp only [Nat.zero_mod, Nat.sub_zero, Nat.zero_add, Finset.range_one, Finset.sum_singleton, Nat.add_zero]
    exact (partN_of_lt m c 0 h j).symm
  | n + 1, h, j => by
    by_cases h0 : (n + 1) % 13 = 0
    · rw [acc_succ_first m c n h h0, pay1_apply, pay3_apply, zero_add, h0]
      simp only [Nat.sub_zero, Finset.range_one, Finset.sum_singleton, Nat.add_zero, Nat.zero_add]
      exact (partN_of_lt m c (n + 1) h j).symm
    · rw [acc_succ_next m c n h h0, pay1_apply, acc_apply c n (Nat.lt_of_succ_lt h) j]
      have e1 : (n + 1) % 13 = n % 13 + 1 := by omega
      have e2 : n + 1 - (n % 13 + 1) = n - n % 13 := by omega
      rw [e1, e2, Finset.sum_range_succ _ (n % 13 + 1)]
      congr 1
      have e3 : n - n % 13 + (n % 13 + 1) = n + 1 := by omega
      rw [e3]
      exact (partN_of_lt m c (n + 1) h j).symm

end Ideal

end Cert.KernelIdeal.Gin

end
-- ==== Proof.Spec.lean ====
/-
  The function both programs compute, written index by index over the extended reals.

  A node's hidden row is a two-layer perceptron of (its own feature row + the sum of the feature rows gathered along the
  edges that point at it); a graph's pooled row is the sum of the hidden rows of the nodes whose graph id is that graph.
  An edge whose destination is no node, and a node whose graph id is no graph, contribute nothing.
-/
import Idealize.ShloMosaic.PureOps.Ideal.Laws
import Idealize.ShloMosaic.Lib.ValueIdx

noncomputable section

open scoped BigOperators

namespace Cert.Gin

open Idealize.ShloMosaic Idealize.ShloMosaic.ValueIdx

/-- The f32 zero word, as an extended real. -/
abbrev zeroF : EReal := Ideal.ofBits .f32 0x00000000#32

/-- One node's hidden row: `relu (y · W1 + b1) · W2 + b2` at column `q`, for the node's input row `y`. -/
def mlpRow (W1 : (⟨2, ![64, 128]⟩ : Shape).Idx → EReal) (b1 : Fin 128 → EReal)
    (W2 : (⟨2, ![128, 128]⟩ : Shape).Idx → EReal) (b2 : Fin 128 → EReal) (y : Fin 64 → EReal) (q : Fin 128) : EReal :=
  (∑ k : Fin 128, max ((∑ a : Fin 64, y a * W1 (ix2 a k)) + b1 k) zeroF * W2 (ix2 k q)) + b2 q

/-- The neighbour sum at node `n`, feature `a`: the gathered rows `G` summed over the edges whose destination word, read
    signed, is `n`. -/
def aggAt (G : (⟨2, ![1200000, 64]⟩ : Shape).Idx → EReal) (dI : IVec ⟨2, ![1200000, 1]⟩ 32) (n : Nat) (a : Fin 64) : EReal :=
  ∑ e ∈ Finset.univ.filter (fun e : Fin 1200000 => (dI (ix2 e (0 : Fin 1))).toInt = (n : Int)), G (ix2 e a)

/-- Node `n`'s hidden row at column `q`. -/
def hRow (X : (⟨2, ![100000, 64]⟩ : Shape).Idx → EReal) (G : (⟨2, ![1200000, 64]⟩ : Shape).Idx → EReal)
    (dI : IVec ⟨2, ![1200000, 1]⟩ 32) (W1 : (⟨2, ![64, 128]⟩ : Shape).Idx → EReal) (b1 : Fin 128 → EReal)
    (W2 : (⟨2, ![128, 128]⟩ : Shape).Idx → EReal) (b2 : Fin 128 → EReal) (n : Fin 100000) (q : Fin 128) : EReal :=
  mlpRow W1 b1 W2 b2 (fun a => X (ix2 n a) + aggAt G dI n.val a) q

/-- Graph `g`'s pooled row at column `q`: the hidden rows of the nodes whose graph-id word, read signed, is `g`, summed. -/
def pooled (X : (⟨2, ![100000, 64]⟩ : Shape).Idx → EReal) (G : (⟨2, ![1200000, 64]⟩ : Shape).Idx → EReal)
    (dI : IVec ⟨2, ![1200000, 1]⟩ 32) (bt : Fin 100000 → BitVec 32) (W1 : (⟨2, ![64, 128]⟩ : Shape).Idx → EReal)
    (b1 : Fin 128 → EReal) (W2 : (⟨2, ![128, 128]⟩ : Shape).Idx → EReal) (b2 : Fin 128 → EReal) (g : Fin 512) (q : Fin 128) :
    EReal :=
  ∑ n ∈ Finset.univ.filter (fun n : Fin 100000 => (bt n).toInt = (g.val : Int)), hRow X G dI W1 b1 W2 b2 n q

end Cert.Gin

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KPartial.lean ====
/-
  One tile's contribution to the pooled rows, read at an entry.

  The kernel body's product (one-hot of the tile's graph ids) · (hidden rows of the tile) at graph g, column q is the sum
  over the tile's rows k of (1 if row k's id word is g, else 0) times row k's hidden value at q, where a row's hidden
  value is the two-layer perceptron of (feature row + neighbour-sum row). Changes of float format are the identity on
  extended reals, and a matrix product into a zero accumulator is the plain sum of products.
-/
import proofs.«424827_j23210003268004_3_alg».proof.Proof.Gen.KernelIdeal.Skeleton
import proofs.«424827_j23210003268004_3_alg».proof.Proof.Spec
import proofs.«424827_j23210003268004_3_alg».proof.Proof.LibPlainDot
import Idealize.ShloMosaic.Lib.Pipeline.Value
import Idealize.ShloMosaic.Lib.ValueLayout

noncomputable section

open scoped BigOperators

namespace Cert.KernelIdeal.Gin

open Cert.KernelIdeal Cert.KernelIdeal.Gen Idealize.ShloMosaic Idealize.ShloMosaic.ValueIdx

/-- The tile's id words, re-laid as one row and repeated down the graphs, read at (g, k). -/
private theorem ids_apply (x2 : Vec Ideal S1x1x4000 .i32) (g : Fin 512) (k : Fin 4000) :
    (broadcastTo S512x4000 (shapeCast S1x4000 (shapeCast S1x1x4000 x2 shapeCasts_S1x1x4000_S1x1x4000)
        shapeCasts_S1x1x4000_S1x4000) broadcasts_S1x4000_S512x4000 : IVec S512x4000 32) (ix2 g k)
      = x2 (ix3 (0 : Fin 1) (0 : Fin 1) k) := by
  refine (broadcastTo_1b_ab_apply _ _ g k).trans ?_
  rw [shapeCast_self]
  exact shapeCast_1ab_ab_apply x2 _ (0 : Fin 1) k

/-- The one-hot matrix at (g, k): one when row k's id word is the word of g, else zero. -/
private theorem onehot_apply (x2 : Vec Ideal S1x1x4000 .i32) (g : Fin 512) (k : Fin 4000) :
    (truncf .bf16 (sitofp .f32 (extui 32 (cmpi .eq (iota .tc S512x4000 32 [0] iota_S512x4000_d0_w32)
        (broadcastTo S512x4000 (shapeCast S1x4000 (shapeCast S1x1x4000 x2 shapeCasts_S1x1x4000_S1x1x4000)
          shapeCasts_S1x1x4000_S1x4000) broadcasts_S1x4000_S512x4000)) natLt_1_32)) bitsLt_bf16_f32
        : FVec Ideal S512x4000 .bf16) (ix2 g k)
      = if BitVec.ofNat 32 g.val = x2 (ix3 (0 : Fin 1) (0 : Fin 1) k) then (1 : EReal) else 0 := by
  have hid := ids_apply x2 g k
  have hio : iota .tc S512x4000 32 [0] iota_S512x4000_d0_w32 (ix2 g k) = BitVec.ofNat 32 g.val :=
    iota_single_apply .tc S512x4000 32 0 _ (ix2 g k)
  show ((((IntOp.cmpi .eq (iota .tc S512x4000 32 [0] iota_S512x4000_d0_w32 (ix2 g k))
      ((broadcastTo S512x4000 (shapeCast S1x4000 (shapeCast S1x1x4000 x2 shapeCasts_S1x1x4000_S1x1x4000)
          shapeCasts_S1x1x4000_S1x4000) broadcasts_S1x4000_S512x4000 : IVec S512x4000 32) (ix2 g k))).setWidth 32).toInt : ℝ) : EReal) = _
  rw [hio, hid]
  by_cases h : BitVec.ofNat 32 g.val = x2 (ix3 (0 : Fin 1) (0 : Fin 1) k)
  · rw [if_pos h]
    have h1 : IntOp.cmpi .eq (BitVec.ofNat 32 g.val) (x2 (ix3 (0 : Fin 1) (0 : Fin 1) k)) = 1#1 := by
      simp only [IntOp.cmpi]
      rw [beq_iff_eq.mpr h]
      rfl
    rw [h1, show ((1#1 : BitVec 1).setWidth 32).toInt = 1 from by decide]
    norm_num
  · rw [if_neg h]
    have h0 : IntOp.cmpi .eq (BitVec.ofNat 32 g.val) (x2 (ix3 (0 : Fin 1) (0 : Fin 1) k)) = 0#1 := by
      simp only [IntOp.cmpi]
      rw [beq_eq_false_iff_ne.mpr h]
      rfl
    rw [h0, show ((0#1 : BitVec 1).setWidth 32).toInt = 0 from by decide]
    norm_num

/-- A bias row repeated down the tile's rows, read at (k, j). -/
private theorem bias_apply (b : Vec Ideal S1x128 .f32) (k : Fin 4000) (j : Fin 128) :
    (broadcastTo S4000x128 (shapeCast S1x128 b shapeCasts_S1x128_S1x128) broadcasts_S1x128_S4000x128 : FVec Ideal S4000x128 .f32) (ix2 k j)
      = b (ix2 (0 : Fin 1) j) := by
  refine (broadcastTo_1b_ab_apply _ _ k j).trans ?_
  rw [shapeCast_self]

/-- The first layer after the rectifier, at row k and column j. -/
private theorem layer1_apply (x0 x1 : Vec Ideal S4000x64 .f32) (x3 : Vec Ideal S64x128 .f32) (x4 : Vec Ideal S1x128 .f32)
    (k : Fin 4000) (j : Fin 128) :
    (
      maximumf (addf (matmul dot_S4000x64_S64x128_S4000x128_1_0_0_1_n_n none (truncf .bf16 (addf x0 (shapeCast
        S4000x64 x1 shapeCasts_S4000x64_S4000x64)) bitsLt_bf16_f32) (truncf .bf16 x3 bitsLt_bf16_f32) (constant
        S4000x128 .f32 0x00000000#32)) (broadcastTo S4000x128 (shapeCast S1x128 x4 shapeCasts_S1x128_S1x128)
        broadcasts_S1x128_S4000x128)) (broadcast S4000x128 (Scalar.ofBits .f32 0x00000000#32))
        : FVec Ideal S4000x128 .f32) (ix2 k j)
      = max ((∑ a : Fin 64, (x0 (ix2 k a) + x1 (ix2 k a)) * x3 (ix2 a j)) + x4 (ix2 (0 : Fin 1) j)) Cert.Gin.zeroF := by
  refine (maximumf_apply _ _ _).trans ?_
  refine congrArg₂ max ?_ rfl
  refine (addf_apply _ _ _).trans ?_
  refine congrArg₂ (fun u v : EReal => u + v) ?_ (bias_apply x4 k j)
  refine (Cert.LibPlainDot.matmul_plain_apply 4000 64 128 none _ _ k j).trans ?_
  refine Finset.sum_congr rfl fun a _ => ?_
  rw [shapeCast_self]
  rfl

/-- The tile's hidden rows at (k, q): the two-layer perceptron of row k of (features + neighbour sums). -/
private theorem hidden_apply (x0 x1 : Vec Ideal S4000x64 .f32) (x3 : Vec Ideal S64x128 .f32) (x4 : Vec Ideal S1x128 .f32)
    (x5 : Vec Ideal S128x128 .f32) (x6 : Vec Ideal S1x128 .f32) (k : Fin 4000) (q : Fin 128) :
    (
      truncf .bf16 (addf (matmul dot_S4000x128_S128x128_S4000x128_1_0_0_1_n_n none (truncf .bf16 (maximumf (addf
        (matmul dot_S4000x64_S64x128_S4000x128_1_0_0_1_n_n none (truncf .bf16 (addf x0 (shapeCast S4000x64 x1
        shapeCasts_S4000x64_S4000x64)) bitsLt_bf16_f32) (truncf .bf16 x3 bitsLt_bf16_f32) (constant S4000x128 .f32
        0x00000000#32)) (broadcastTo S4000x128 (shapeCast S1x128 x4 shapeCasts_S1x128_S1x128)
        broadcasts_S1x128_S4000x128)) (broadcast S4000x128 (Scalar.ofBits .f32 0x00000000#32))) bitsLt_bf16_f32)
        (truncf .bf16 x5 bitsLt_bf16_f32) (constant S4000x128 .f32 0x00000000#32)) (broadcastTo S4000x128 (shapeCast
        S1x128 x6 shapeCasts_S1x128_S1x128) broadcasts_S1x128_S4000x128)) bitsLt_bf16_f32
        : FVec Ideal S4000x128 .bf16) (ix2 k q)
      = Cert.Gin.mlpRow x3 (fun j => x4 (ix2 (0 : Fin 1) j)) x5 (fun j => x6 (ix2 (0 : Fin 1) j))
          (fun a => x0 (ix2 k a) + x1 (ix2 k a)) q := by
  refine (truncf_apply (φ := .f32) (ψ := .bf16) _ bitsLt_bf16_f32 (ix2 k q)).trans ?_
  refine (addf_apply _ _ _).trans ?_
  unfold Cert.Gin.mlpRow
  refine congrArg₂ (fun u v : EReal => u + v) ?_ (bias_apply x6 k q)
  refine (Cert.LibPlainDot.matmul_plain_apply 4000 128 128 none _ _ k q).trans ?_
  refine Finset.sum_congr rfl fun j _ => ?_
  refine congrArg₂ (fun u v : EReal => u * v) ?_ rfl
  exact (truncf_apply (φ := .f32) (ψ := .bf16) _ bitsLt_bf16_f32 (ix2 k j)).trans (layer1_apply x0 x1 x3 x4 k j)

/-- The tile product at entry (g, q). -/
theorem partial_apply (x0 x1 : Vec Ideal S4000x64 .f32) (x2 : Vec Ideal S1x1x4000 .i32) (x3 : Vec Ideal S64x128 .f32)
    (x4 : Vec Ideal S1x128 .f32) (x5 : Vec Ideal S128x128 .f32) (x6 : Vec Ideal S1x128 .f32) (g : Fin 512) (q : Fin 128) :
    k0_pay4 (F := Ideal) x0 x1 x3 x4 x5 x6 x2 (ix2 g q)
      = ∑ k : Fin 4000, (if BitVec.ofNat 32 g.val = x2 (ix3 (0 : Fin 1) (0 : Fin 1) k) then (1 : EReal) else 0)
          * Cert.Gin.mlpRow x3 (fun j => x4 (ix2 (0 : Fin 1) j)) x5 (fun j => x6 (ix2 (0 : Fin 1) j))
              (fun a => x0 (ix2 k a) + x1 (ix2 k a)) q := by
  unfold k0_pay4
  refine (Cert.LibPlainDot.matmul_plain_apply 512 4000 128 none _ _ g q).trans ?_
  refine Finset.sum_congr rfl fun k _ => ?_
  exact congrArg₂ (fun u v : EReal => u * v) (onehot_apply x2 g k) (hidden_apply x0 x1 x3 x4 x5 x6 k q)

end Cert.KernelIdeal.Gin

end
-- ==== Proof.LibRowScatter.lean ====
/-
  A row scatter-add read at one entry. For the dimension numbers "each update row e lands on the operand row its index
  word names" (update window axis 1, inserted window axis 0, the index vector of length one on axis 1), the accumulating
  scatter at row `r`, column `a` is the operand there plus the sum, over the update rows `e` whose index word read as a
  signed integer is `r`, of the update at (e, a). An index word that names no row contributes nothing.
-/
import Idealize.ShloMosaic.PureOps.Ideal.Laws
import Idealize.ShloMosaic.Lib.ValueIdx

noncomputable section

open scoped BigOperators

namespace Cert.LibRowScatter

open Idealize.ShloMosaic Idealize.ShloMosaic.ValueIdx

/-- Those dimension numbers for an operand `[R, C]`, scatter indices `[E, 1]` and updates `[E, C]`. -/
abbrev rowDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- On operand axis 0 the window starts at the index word of the update's row, read signed. -/
private theorem start0 {R C E w : Nat}
    (wf : ScatterDims.WF ⟨2, ![R, C]⟩ ⟨2, ![E, 1]⟩ ⟨2, ![E, C]⟩ [1] [0] [0] 1)
    (idx : IVec ⟨2, ![E, 1]⟩ w) (j : (⟨2, ![E, C]⟩ : Shape).Idx) :
    (rowDims R C E wf).start j idx (0 : Fin 2) = (idx (ix2 (j 0) (0 : Fin 1))).toInt := by
  unfold ScatterDims.start
  rw [dif_pos (show (0 : Fin 2) ∈ (rowDims R C E wf).scatterDimsToOperandDims from List.mem_singleton.mpr rfl)]
  have hsi : (rowDims R C E wf).siIdx j ⟨List.idxOf (0 : Fin 2) (rowDims R C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On operand axis 1, which the index map does not name, the window starts at 0. -/
private theorem start1 {R C E w : Nat}
    (wf : ScatterDims.WF ⟨2, ![R, C]⟩ ⟨2, ![E, 1]⟩ ⟨2, ![E, C]⟩ [1] [0] [0] 1)
    (idx : IVec ⟨2, ![E, 1]⟩ w) (j : (⟨2, ![E, C]⟩ : Shape).Idx) :
    (rowDims R C E wf).start j idx (1 : Fin 2) = 0 := by
  unfold ScatterDims.start
  rw [dif_neg (show ¬ (1 : Fin 2) ∈ ([0] : List (Fin 2)) by decide)]

/-- Operand axis 0 is an inserted window axis: the window coordinate there is 0. -/
private theorem window0 {R C E : Nat}
    (wf : ScatterDims.WF ⟨2, ![R, C]⟩ ⟨2, ![E, 1]⟩ ⟨2, ![E, C]⟩ [1] [0] [0] 1)
    (j : (⟨2, ![E, C]⟩ : Shape).Idx) :
    (rowDims R C E wf).window j (0 : Fin 2) = 0 := by
  unfold ScatterDims.window
  have hn : (0 : Fin 2) ∉ (rowDims R C E wf).sKept :=
    show ¬ (0 : Fin 2) ∈ (List.finRange 2).filter (· ∉ ([0] : List (Fin 2))) by decide
  rw [dif_neg hn]

/-- On operand axis 1 the window coordinate is the update's column. -/
private theorem window1 {R C E : Nat}
    (wf : ScatterDims.WF ⟨2, ![R, C]⟩ ⟨2, ![E, 1]⟩ ⟨2, ![E, C]⟩ [1] [0] [0] 1)
    (j : (⟨2, ![E, C]⟩ : Shape).Idx) :
    (rowDims R C E wf).window j (1 : Fin 2) = (j 1).val := by
  unfold ScatterDims.window
  have hp : (1 : Fin 2) ∈ (rowDims R C E wf).sKept :=
    show (1 : Fin 2) ∈ (List.finRange 2).filter (· ∉ ([0] : List (Fin 2))) by decide
  rw [dif_pos hp]
  rfl

/-- Update index `j` lands at (r, a) exactly when its row's index word reads `r` and its column is `a`. -/
private theorem resultIdx_iff {R C E w : Nat}
    (wf : ScatterDims.WF ⟨2, ![R, C]⟩ ⟨2, ![E, 1]⟩ ⟨2, ![E, C]⟩ [1] [0] [0] 1)
    (idx : IVec ⟨2, ![E, 1]⟩ w) (r : Fin R) (a : Fin C) (j : (⟨2, ![E, C]⟩ : Shape).Idx) :
    (rowDims R C E wf).resultIdx? j idx = some (ix2 r a)
      ↔ (idx (ix2 (j 0) (0 : Fin 1))).toInt = (r.val : Int) ∧ (j 1).val = a.val := by
  have hj1 : (j 1).val < C := idx2_lt1 j
  unfold ScatterDims.resultIdx?
  split
  · rename_i h
    rw [Option.some.injEq]
    have h0 := h (0 : Fin 2)
    have h1 := h (1 : Fin 2)
    rw [start0, window0] at h0
    rw [start1, window1] at h1
    constructor
    · intro hEq
      have e0 := congrArg (fun f => (f (0 : Fin 2)).val) hEq
      have e1 := congrArg (fun f => (f (1 : Fin 2)).val) hEq
      simp only [start0, start1, window0, window1] at e0 e1
      change _ = r.val at e0
      change _ = a.val at e1
      constructor
      · omega
      · omega
    · rintro ⟨g0, g1⟩
      funext b
      refine Fin.ext ?_
      match b with
      | ⟨0, _⟩ =>
        show ((rowDims R C E wf).start j idx (0 : Fin 2) + ((rowDims R C E wf).window j (0 : Fin 2) : Int)).toNat = r.val
        rw [start0, window0]; omega
      | ⟨1, _⟩ =>
        show ((rowDims R C E wf).start j idx (1 : Fin 2) + ((rowDims R C E wf).window j (1 : Fin 2) : Int)).toNat = a.val
        rw [start1, window1]; omega
  · rename_i h
    constructor
    · intro hEq; exact absurd hEq (by simp)
    · rintro ⟨g0, g1⟩
      exfalso
      apply h
      intro b
      match b with
      | ⟨0, _⟩ =>
        show 0 ≤ (rowDims R C E wf).start j idx (0 : Fin 2) + ((rowDims R C E wf).window j (0 : Fin 2) : Int) ∧
          (rowDims R C E wf).start j idx (0 : Fin 2) + ((rowDims R C E wf).window j (0 : Fin 2) : Int) < (R : Int)
        rw [start0, window0]; have := r.isLt; omega
      | ⟨1, _⟩ =>
        show 0 ≤ (rowDims R C E wf).start j idx (1 : Fin 2) + ((rowDims R C E wf).window j (1 : Fin 2) : Int) ∧
          (rowDims R C E wf).start j idx (1 : Fin 2) + ((rowDims R C E wf).window j (1 : Fin 2) : Int) < (C : Int)
        rw [start1, window1]; omega

/-- The accumulating row scatter at entry (r, a). -/
theorem scatterAdd_row_apply {R C E w : Nat}
    (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ w) (upd : (⟨2, ![E, C]⟩ : Shape).Idx → EReal)
    (r : Fin R) (a : Fin C) :
    Ideal.hostScatterAdd (rowDims R C E wf) x idx upd (ix2 r a)
      = x (ix2 r a) + ∑ e ∈ Finset.univ.filter (fun e : Fin E => (idx (ix2 e (0 : Fin 1))).toInt = (r.val : Int)), upd (ix2 e a) := by
  have hback : ∀ j : (⟨2, ![E, C]⟩ : Shape).Idx, (j 1).val = a.val → ix2 (j 0 : Fin E) a = j := by
    intro j h
    funext b
    match b with
    | ⟨0, _⟩ => rfl
    | ⟨1, _⟩ => exact (Fin.ext h).symm
  unfold Ideal.hostScatterAdd
  congr 1
  refine Finset.sum_nbij' (fun j => (j 0 : Fin E)) (fun e => ix2 e a) ?_ ?_ ?_ ?_ ?_
  · intro j hj
    rw [Finset.mem_filter] at hj
    exact Finset.mem_filter.mpr ⟨Finset.mem_univ _, ((resultIdx_iff wf idx r a j).mp hj.2).1⟩
  · intro e he
    rw [Finset.mem_filter] at he ⊢
    exact ⟨Finset.mem_univ _, (resultIdx_iff wf idx r a (ix2 e a)).mpr ⟨he.2, rfl⟩⟩
  · intro j hj
    rw [Finset.mem_filter] at hj
    exact hback j ((resultIdx_iff wf idx r a j).mp hj.2).2
  · intro e _
    rfl
  · intro j hj
    rw [Finset.mem_filter] at hj
    exact congrArg upd (hback j ((resultIdx_iff wf idx r a j).mp hj.2).2).symm

end Cert.LibRowScatter

end
-- ==== Proof.KHost.lean ====
/-
  What the kernel's region finds in the arrays the host computed before it.

  The neighbour-sum array has 104000 rows: row n, feature a is the sum of the gathered rows over the edges whose
  destination is n. The graph ids are padded with −1 to 104000 and laid out as 26 tiles of 4000. The two bias rows are
  the bias vectors as 1 × 128 arrays.
-/
import proofs.«424827_j23210003268004_3_alg».proof.Proof.Gen.KernelIdeal.Frame.Runs
import proofs.«424827_j23210003268004_3_alg».proof.Proof.Gen.ReferenceIdeal.Read
import proofs.«424827_j23210003268004_3_alg».proof.Proof.Spec
import proofs.«424827_j23210003268004_3_alg».proof.Proof.LibRowScatter
import Idealize.ShloMosaic.Lib.Pipeline.Value
import Idealize.ShloMosaic.Lib.ValueLayout
import Idealize.ShloMosaic.Lib.StableHlo.Run
import Idealize.ShloMosaic.Lib.KernelVsHost

noncomputable section

open scoped BigOperators

namespace Cert.KernelIdeal.Gin

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ)

/-- Grid point `t` as a tile number below 26. -/
def tileIx (t : Fin cfg0.N) : Fin 26 := ⟨t.val, lt_of_lt_of_eq t.isLt (show cfg0.N = 26 from N_0)⟩

/-- Row `4000 t + r` of a 104000-row array. -/
def rowOf (t : Fin cfg0.N) (r : Fin 4000) : Fin 104000 :=
  ⟨4000 * t.val + r.val, by have := lt_of_lt_of_eq t.isLt (show cfg0.N = 26 from N_0); have := r.isLt; omega⟩

/-- Row `4000 · min t 24 + r` of the 100000-row feature array. -/
def xrowOf (t : Fin cfg0.N) (r : Fin 4000) : Fin 100000 :=
  ⟨4000 * min t.val 24 + r.val, by have := r.isLt; omega⟩

/-! ## The arrays the host wrote before the region -/

/-- The gathered rows are the reference's gathered rows of the same arguments. -/
theorem V_v10 (c : Dev nD) :
    V m c main_v10 = Cert.ReferenceIdeal.Read.val_main_v10 (F := Ideal) (m ((c : Thread nD τ).loc main_arg0))
      (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

/-- The destination index words are the reference's. -/
theorem V_v12 (c : Dev nD) :
    V m c main_v12 = Cert.ReferenceIdeal.Read.val_main_v12 (F := Ideal) (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

/-- The neighbour-sum array is the row scatter-add, into zeros, of the gathered rows at the destination words. -/
private theorem term_v13 (c : Dev nD) :
    V m c main_v13 = (Host.scatterAdd (F := Ideal) scatter_S104000x64_S1200000x1_S1200000x64_1_0_0_1
      (broadcastInDim S104000x64 ![] bcast_S_S104000x64 (constant (F := Ideal) S_ .f32 0x00000000#32))
      (Cert.ReferenceIdeal.Read.val_main_v12 (F := Ideal) (m ((c : Thread nD τ).loc main_arg1)))
      (Cert.ReferenceIdeal.Read.val_main_v10 (F := Ideal) (m ((c : Thread nD τ).loc main_arg0))
        (m ((c : Thread nD τ).loc main_arg1))) : (⟨S104000x64, .f32⟩ : BufTy).Contents (Elt Ideal)) := by
  dsimp only [Gen.V, Gen.V0]
  simp only [Gen.hostOps0, Gen.hostOps0_1, Gen.hostOps0_2, List.flatten_cons, List.flatten_nil, List.append_nil,
    List.cons_append, List.nil_append]
  after_results
  rfl

/-- A row scatter-add into an operand that is zero at (r, a), read there: the updates at column a summed over the rows
    whose index word, read signed, is r. -/
private theorem host_scatter_row {R C E w : Nat}
    (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ w)
    (upd : (⟨2, ![E, C]⟩ : Shape).Idx → EReal) (r : Fin R) (a : Fin C) (hx : x (ix2 r a) = 0) :
    Host.scatterAdd (F := Ideal) (φ := .f32) (Cert.LibRowScatter.rowDims R C E wf) x idx upd (ix2 r a)
      = ∑ e ∈ Finset.univ.filter (fun e : Fin E => (idx (ix2 e (0 : Fin 1))).toInt = (r.val : Int)), upd (ix2 e a) := by
  refine (Cert.LibRowScatter.scatterAdd_row_apply wf x idx upd r a).trans ?_
  rw [hx, zero_add]

/-- The neighbour-sum array at row n, feature a. -/
theorem V_v13_apply (c : Dev nD) (n : Fin 104000) (a : Fin 64) :
    V m c main_v13 (ix2 n a) = Cert.Gin.aggAt (V m c main_v10) (V m c main_v12) n.val a := by
  have hz : (broadcastInDim S104000x64 ![] bcast_S_S104000x64 (constant (F := Ideal) S_ .f32 0x00000000#32)
      : (⟨S104000x64, .f32⟩ : BufTy).Contents (Elt Ideal)) (ix2 n a) = (0 : EReal) :=
    (broadcastInDim_apply _ bcast_S_S104000x64 _ (ix2 n a) ix0 (fun b => b.elim0)).trans Ideal.ofBits_zero_f32
  refine (congrFun (term_v13 m c) (ix2 n a)).trans ?_
  refine (host_scatter_row (R := 104000) (C := 64) (E := 1200000)
    scatter_S104000x64_S1200000x1_S1200000x64_1_0_0_1_wf
    (broadcastInDim S104000x64 ![] bcast_S_S104000x64 (constant (F := Ideal) S_ .f32 0x00000000#32)) _ _ n a hz).trans ?_
  exact (congrArg₂ (fun G d => Cert.Gin.aggAt G d n.val a) (V_v10 m c) (V_v12 m c)).symm

/-- The tiled graph ids are the 26 × 1 × 4000 arrangement of the graph ids padded with −1 to 104000. -/
private theorem term_v15 (c : Dev nD) :
    V m c main_v15 = (shapeCast S26x1x4000 (pad S104000 ![0] ![4000] ![0] (m ((c : Thread nD τ).loc main_arg2))
      (constantI S_ 32 4294967295#32) pads_S100000_S104000_040000 h_S_) shapeCasts_S104000_S26x1x4000
        : (⟨S26x1x4000, .i32⟩ : BufTy).Contents (Elt Ideal)) := by
  dsimp only [Gen.V, Gen.V0]
  simp only [Gen.hostOps0, Gen.hostOps0_1, Gen.hostOps0_2, List.flatten_cons, List.flatten_nil, List.append_nil,
    List.cons_append, List.nil_append]
  after_results
  rfl

/-- The padded, tiled graph ids at tile t, row k. -/
theorem V_v15_apply (c : Dev nD) (t : Fin 26) (k : Fin 4000) :
    V m c main_v15 (ix3 t (0 : Fin 1) k)
      = if h : 4000 * t.val + k.val < 100000 then m ((c : Thread nD τ).loc main_arg2) (ix1 ⟨4000 * t.val + k.val, h⟩)
        else 4294967295#32 := by
  have ht := t.isLt
  have hk := k.isLt
  rw [term_v15]
  refine (shapeCast_apply _ shapeCasts_S104000_S26x1x4000 (ix3 t (0 : Fin 1) k)
    (ix1 (⟨4000 * t.val + k.val, by omega⟩ : Fin 104000)) (by
      rw [Shape.rowMajor_val_three, Shape.rowMajor_val_one]
      show 4000 * t.val + k.val = (t.val * 1 + 0) * 4000 + k.val
      omega)).trans ?_
  by_cases h : 4000 * t.val + k.val < 100000
  · rw [dif_pos h]
    exact pad_apply_of_inside _ _ _ _ _ pads_S100000_S104000_040000 h_S_ _ (ix1 ⟨4000 * t.val + k.val, h⟩) (by
      intro a
      have ha : a = 0 := Subsingleton.elim _ _
      subst ha
      show 4000 * t.val + k.val = 0 + (4000 * t.val + k.val) * (0 + 1)
      omega)
  · rw [dif_neg h]
    refine (pad_apply_of_not_inside _ _ _ _ _ pads_S100000_S104000_040000 h_S_ _ (0 : Fin 1) ?_).trans rfl
    show ¬(0 ≤ 4000 * t.val + k.val ∧ (4000 * t.val + k.val - 0) % (0 + 1) = 0
      ∧ (4000 * t.val + k.val - 0) / (0 + 1) < 100000)
    omega

/-- The first bias row is the 1 × 128 arrangement of the first bias vector. -/
private theorem term_v16 (c : Dev nD) :
    V m c main_v16 = (shapeCast _ (m ((c : Thread nD τ).loc main_arg4)) shapeCasts_S128_S1x128
      : (⟨S1x128, .f32⟩ : BufTy).Contents (Elt Ideal)) := by
  dsimp only [Gen.V, Gen.V0]
  simp only [Gen.hostOps0, Gen.hostOps0_1, Gen.hostOps0_2, List.flatten_cons, List.flatten_nil, List.append_nil,
    List.cons_append, List.nil_append]
  after_results
  rfl

/-- The first bias row. -/
theorem V_v16_apply (c : Dev nD) (j : Fin 128) :
    V m c main_v16 (ix2 (0 : Fin 1) j) = m ((c : Thread nD τ).loc main_arg4) (ix1 j) := by
  rw [term_v16]
  exact shapeCast_apply _ shapeCasts_S128_S1x128 (ix2 (0 : Fin 1) j) (ix1 j) (by
    rw [Shape.rowMajor_val_two, Shape.rowMajor_val_one]
    show j.val = 0 * 128 + j.val
    omega)

/-- The second bias row is the 1 × 128 arrangement of the second bias vector. -/
private theorem term_v17 (c : Dev nD) :
    V m c main_v17 = (shapeCast _ (m ((c : Thread nD τ).loc main_arg6)) shapeCasts_S128_S1x128
      : (⟨S1x128, .f32⟩ : BufTy).Contents (Elt Ideal)) := by
  dsimp only [Gen.V, Gen.V0]
  simp only [Gen.hostOps0, Gen.hostOps0_1, Gen.hostOps0_2, List.flatten_cons, List.flatten_nil, List.append_nil,
    List.cons_append, List.nil_append]
  after_results
  rfl

/-- The second bias row. -/
theorem V_v17_apply (c : Dev nD) (j : Fin 128) :
    V m c main_v17 (ix2 (0 : Fin 1) j) = m ((c : Thread nD τ).loc main_arg6) (ix1 j) := by
  rw [term_v17]
  exact shapeCast_apply _ shapeCasts_S128_S1x128 (ix2 (0 : Fin 1) j) (ix1 j) (by
    rw [Shape.rowMajor_val_two, Shape.rowMajor_val_one]
    show j.val = 0 * 128 + j.val
    omega)

end Cert.KernelIdeal.Gin

end
-- ==== Proof.KBlocks.lean ====
/-
  What each window's block holds at a grid point. A block of a tiled window at grid point t is the array's rows
  4000·t … 4000·t + 3999 (for the feature array the tile index is capped at 24, so the last grid point reads tile 24
  again); the graph-id window's block is tile t of the tiled id array; an untiled window's block is the whole array.
-/
import proofs.«424827_j23210003268004_3_alg».proof.Proof.KHost

noncomputable section

open scoped BigOperators

namespace Cert.KernelIdeal.Gin

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ)

/-- Window 0 reads tile min(t, 24) of the feature array. -/
private theorem idx0 : ∀ t : Fin cfg0.N, win0_0.index t 0 = min t.val 24 ∧ win0_0.index t 1 = 0 :=
  (by decide +kernel : ∀ t : Fin grid0.N, win0_0.index t 0 = min t.val 24 ∧ win0_0.index t 1 = 0)

/-- Window 1 reads tile t of the neighbour-sum array. -/
private theorem idx1 : ∀ t : Fin cfg0.N, win0_1.index t 0 = t.val ∧ win0_1.index t 1 = 0 :=
  (by decide +kernel : ∀ t : Fin grid0.N, win0_1.index t 0 = t.val ∧ win0_1.index t 1 = 0)

/-- Window 2 reads tile t of the tiled graph ids. -/
private theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Windows 3 to 6 read their whole array at every point. -/
private theorem idx3 : ∀ t : Fin cfg0.N, win0_3.index t 0 = 0 ∧ win0_3.index t 1 = 0 :=
  (by decide +kernel : ∀ t : Fin grid0.N, win0_3.index t 0 = 0 ∧ win0_3.index t 1 = 0)
private theorem idx4 : ∀ t : Fin cfg0.N, win0_4.index t 0 = 0 ∧ win0_4.index t 1 = 0 :=
  (by decide +kernel : ∀ t : Fin grid0.N, win0_4.index t 0 = 0 ∧ win0_4.index t 1 = 0)
private theorem idx5 : ∀ t : Fin cfg0.N, win0_5.index t 0 = 0 ∧ win0_5.index t 1 = 0 :=
  (by decide +kernel : ∀ t : Fin grid0.N, win0_5.index t 0 = 0 ∧ win0_5.index t 1 = 0)
private theorem idx6 : ∀ t : Fin cfg0.N, win0_6.index t 0 = 0 ∧ win0_6.index t 1 = 0 :=
  (by decide +kernel : ∀ t : Fin grid0.N, win0_6.index t 0 = 0 ∧ win0_6.index t 1 = 0)

/-! Each block read holds for an arbitrary assignment `W` of contents to the arrays: the coordinate of a block's entry
    along an axis is index × block size + the coordinate inside the block. -/

private theorem read0 (c : Dev nD) (W : (b : Ref sig .tc) → Buf (Elt Ideal) ((c : Thread nD τ).loc b))
    (t : Fin cfg0.N) (r : Fin 4000) (a : Fin 64) :
    (((cfg0.win 0).blk t).view.read (Elt Ideal) (W (Pipeline.arrRef spec0 0)) : Vec Ideal S4000x64 .f32) (ix2 r a)
      = W main_arg0 (ix2 (xrowOf t r) a) := by
  have hi := idx0 t
  rw [View.read_apply]
  show W main_arg0 _ = W main_arg0 _
  refine congrArg (W main_arg0) ?_
  funext b
  apply Fin.ext
  match b with
  | ⟨0, _⟩ => show win0_0.index t 0 * 4000 + 1 * r.val = 4000 * min t.val 24 + r.val; rw [hi.1]; omega
  | ⟨1, _⟩ => show win0_0.index t 1 * 64 + 1 * a.val = a.val; rw [hi.2]; omega

private theorem read1 (c : Dev nD) (W : (b : Ref sig .tc) → Buf (Elt Ideal) ((c : Thread nD τ).loc b))
    (t : Fin cfg0.N) (r : Fin 4000) (a : Fin 64) :
    (((cfg0.win 1).blk t).view.read (Elt Ideal) (W (Pipeline.arrRef spec0 1)) : Vec Ideal S4000x64 .f32) (ix2 r a)
      = W main_v13 (ix2 (rowOf t r) a) := by
  have hi := idx1 t
  rw [View.read_apply]
  show W main_v13 _ = W main_v13 _
  refine congrArg (W main_v13) ?_
  funext b
  apply Fin.ext
  match b with
  | ⟨0, _⟩ => show win0_1.index t 0 * 4000 + 1 * r.val = 4000 * t.val + r.val; rw [hi.1]; omega
  | ⟨1, _⟩ => show win0_1.index t 1 * 64 + 1 * a.val = a.val; rw [hi.2]; omega

private theorem read2 (c : Dev nD) (W : (b : Ref sig .tc) → Buf (Elt Ideal) ((c : Thread nD τ).loc b))
    (t : Fin cfg0.N) (k : Fin 4000) :
    (((cfg0.win 2).blk t).view.read (Elt Ideal) (W (Pipeline.arrRef spec0 2)) : Vec Ideal S1x1x4000 .i32)
        (ix3 (0 : Fin 1) (0 : Fin 1) k)
      = W main_v15 (ix3 (tileIx t) (0 : Fin 1) k) := by
  have hi := idx2 t
  rw [View.read_apply]
  show W main_v15 _ = W main_v15 _
  refine congrArg (W main_v15) ?_
  funext b
  apply Fin.ext
  match b with
  | ⟨0, _⟩ => show win0_2.index t 0 * 1 + 1 * 0 = t.val; rw [hi.1]; omega
  | ⟨1, _⟩ => show win0_2.index t 1 * 1 + 1 * 0 = 0; rw [hi.2.1]
  | ⟨2, _⟩ => show win0_2.index t 2 * 4000 + 1 * k.val = k.val; rw [hi.2.2]; omega

private theorem read3 (c : Dev nD) (W : (b : Ref sig .tc) → Buf (Elt Ideal) ((c : Thread nD τ).loc b))
    (t : Fin cfg0.N) :
    (((cfg0.win 3).blk t).view.read (Elt Ideal) (W (Pipeline.arrRef spec0 3)) : Vec Ideal S64x128 .f32)
      = W main_arg3 := by
  have hi := idx3 t
  funext y
  rw [View.read_apply]
  show W main_arg3 _ = W main_arg3 y
  refine congrArg (W main_arg3) ?_
  funext b
  apply Fin.ext
  match b with
  | ⟨0, _⟩ => show win0_3.index t 0 * 64 + 1 * (y 0).val = (y 0).val; rw [hi.1]; omega
  | ⟨1, _⟩ => show win0_3.index t 1 * 128 + 1 * (y 1).val = (y 1).val; rw [hi.2]; omega

private theorem read4 (c : Dev nD) (W : (b : Ref sig .tc) → Buf (Elt Ideal) ((c : Thread nD τ).loc b))
    (t : Fin cfg0.N) :
    (((cfg0.win 4).blk t).view.read (Elt Ideal) (W (Pipeline.arrRef spec0 4)) : Vec Ideal S1x128 .f32)
      = W main_v16 := by
  have hi := idx4 t
  funext y
  rw [View.read_apply]
  show W main_v16 _ = W main_v16 y
  refine congrArg (W main_v16) ?_
  funext b
  apply Fin.ext
  match b with
  | ⟨0, _⟩ => show win0_4.index t 0 * 1 + 1 * (y 0).val = (y 0).val; rw [hi.1]; omega
  | ⟨1, _⟩ => show win0_4.index t 1 * 128 + 1 * (y 1).val = (y 1).val; rw [hi.2]; omega

private theorem read5 (c : Dev nD) (W : (b : Ref sig .tc) → Buf (Elt Ideal) ((c : Thread nD τ).loc b))
    (t : Fin cfg0.N) :
    (((cfg0.win 5).blk t).view.read (Elt Ideal) (W (Pipeline.arrRef spec0 5)) : Vec Ideal S128x128 .f32)
      = W main_arg5 := by
  have hi := idx5 t
  funext y
  rw [View.read_apply]
  show W main_arg5 _ = W main_arg5 y
  refine congrArg (W main_arg5) ?_
  funext b
  apply Fin.ext
  match b with
  | ⟨0, _⟩ => show win0_5.index t 0 * 128 + 1 * (y 0).val = (y 0).val; rw [hi.1]; omega
  | ⟨1, _⟩ => show win0_5.index t 1 * 128 + 1 * (y 1).val = (y 1).val; rw [hi.2]; omega

private theorem read6 (c : Dev nD) (W : (b : Ref sig .tc) → Buf (Elt Ideal) ((c : Thread nD τ).loc b))
    (t : Fin cfg0.N) :
    (((cfg0.win 6).blk t).view.read (Elt Ideal) (W (Pipeline.arrRef spec0 6)) : Vec Ideal S1x128 .f32)
      = W main_v17 := by
  have hi := idx6 t
  funext y
  rw [View.read_apply]
  show W main_v17 _ = W main_v17 y
  refine congrArg (W main_v17) ?_
  funext b
  apply Fin.ext
  match b with
  | ⟨0, _⟩ => show win0_6.index t 0 * 1 + 1 * (y 0).val = (y 0).val; rw [hi.1]; omega
  | ⟨1, _⟩ => show win0_6.index t 1 * 128 + 1 * (y 1).val = (y 1).val; rw [hi.2]; omega

theorem iblk0_apply (c : Dev nD) (t : Fin cfg0.N) (r : Fin 4000) (a : Fin 64) :
    (iblk m c 0 t : Vec Ideal S4000x64 .f32) (ix2 r a) = m ((c : Thread nD τ).loc main_arg0) (ix2 (xrowOf t r) a) := by
  unfold iblk
  refine (read0 c (V m c) t r a).trans ?_
  rw [V_main_arg0]

theorem iblk1_apply (c : Dev nD) (t : Fin cfg0.N) (r : Fin 4000) (a : Fin 64) :
    (iblk m c 1 t : Vec Ideal S4000x64 .f32) (ix2 r a) = V m c main_v13 (ix2 (rowOf t r) a) := by
  unfold iblk
  exact read1 c (V m c) t r a

theorem iblk2_apply (c : Dev nD) (t : Fin cfg0.N) (k : Fin 4000) :
    (iblk m c 2 t : Vec Ideal S1x1x4000 .i32) (ix3 (0 : Fin 1) (0 : Fin 1) k) = V m c main_v15 (ix3 (tileIx t) (0 : Fin 1) k) := by
  unfold iblk
  exact read2 c (V m c) t k

theorem iblk3_eq (c : Dev nD) (t : Fin cfg0.N) :
    (iblk m c 3 t : Vec Ideal S64x128 .f32) = m ((c : Thread nD τ).loc main_arg3) := by
  unfold iblk
  refine (read3 c (V m c) t).trans ?_
  rw [V_main_arg3]

theorem iblk4_eq (c : Dev nD) (t : Fin cfg0.N) : (iblk m c 4 t : Vec Ideal S1x128 .f32) = V m c main_v16 := by
  unfold iblk
  exact read4 c (V m c) t

theorem iblk5_eq (c : Dev nD) (t : Fin cfg0.N) :
    (iblk m c 5 t : Vec Ideal S128x128 .f32) = m ((c : Thread nD τ).loc main_arg5) := by
  unfold iblk
  refine (read5 c (V m c) t).trans ?_
  rw [V_main_arg5]

theorem iblk6_eq (c : Dev nD) (t : Fin cfg0.N) : (iblk m c 6 t : Vec Ideal S1x128 .f32) = V m c main_v17 := by
  unfold iblk
  exact read6 c (V m c) t

end Cert.KernelIdeal.Gin

end
-- ==== Proof.Pooling.lean ====
/-
  Pooling by a one-hot product, tile by tile, is the segment sum.

  The nodes are cut into 25 tiles of 4000; a 26th tile carries the graph id −1 on every row. Per tile the one-hot
  product adds, for graph g, the rows whose id word equals g. Summed over the two halves of 13 tiles each this is the
  sum over all nodes whose id, read signed, is g: the 26th tile matches no g, and the order of a finite sum of extended
  reals does not matter.
-/
import Mathlib.Data.EReal.Basic
import Mathlib.Algebra.BigOperators.Fin
import Mathlib.Algebra.BigOperators.Intervals
import Mathlib.Logic.Equiv.Fin.Basic

noncomputable section

open scoped BigOperators

namespace Cert.Gin

/-- Tile `13 p + i` of half `p`. -/
def tileOf (p : Fin 2) (i : Fin 13) : Fin 26 := ⟨13 * p.val + i.val, by have := p.isLt; have := i.isLt; omega⟩

/-- Node `4000 t + k` of a real tile `t < 25`. -/
def nodeOf (t : Fin 26) (k : Fin 4000) (h : t.val < 25) : Fin 100000 := ⟨4000 * t.val + k.val, by have := k.isLt; omega⟩

/-- A double sum over `Fin m × Fin n` of a function of `n a + b` is the single sum over `Fin (m n)`. -/
private theorem sum_fin_mul {M : Type*} [AddCommMonoid M] (m n N : ℕ) (hN : m * n = N) (f : Fin N → M)
    (hlt : ∀ (a : Fin m) (b : Fin n), n * a.val + b.val < N) :
    (∑ a : Fin m, ∑ b : Fin n, f ⟨n * a.val + b.val, hlt a b⟩) = ∑ x : Fin N, f x := by
  subst hN
  rw [← Equiv.sum_comp finProdFinEquiv f, Fintype.sum_prod_type]
  refine Finset.sum_congr rfl fun a _ => Finset.sum_congr rfl fun b _ => ?_
  congr 1
  ext
  simp only [finProdFinEquiv_apply_val]
  omega

/-- A graph id below 512 is not the all-ones word. -/
private theorem ofNat_ne_pad (g : Fin 512) : BitVec.ofNat 32 g.val ≠ 4294967295#32 := by
  intro h
  have h' := congrArg BitVec.toNat h
  have hg := g.isLt
  simp only [BitVec.toNat_ofNat] at h'
  omega

/-- For a graph id below 512, equality of words is equality of the signed readings. -/
private theorem ofNat_eq_iff (g : Fin 512) (b : BitVec 32) :
    BitVec.ofNat 32 g.val = b ↔ b.toInt = (g.val : Int) := by
  have hg := g.isLt
  have hb := b.isLt
  constructor
  · intro h
    subst h
    rw [BitVec.toInt_eq_toNat_cond]
    simp only [BitVec.toNat_ofNat]
    have : g.val % 2 ^ 32 = g.val := Nat.mod_eq_of_lt (by omega)
    rw [this]
    split_ifs with h2
    · rfl
    · exfalso; omega
  · intro h
    apply BitVec.eq_of_toNat_eq
    rw [BitVec.toInt_eq_toNat_cond] at h
    simp only [BitVec.toNat_ofNat]
    have : g.val % 2 ^ 32 = g.val := Nat.mod_eq_of_lt (by omega)
    rw [this]
    split_ifs at h with h2
    · omega
    · exfalso; omega

theorem pool_eq (bt : Fin 100000 → BitVec 32) (HR : Fin 100000 → EReal) (bp : Fin 26 → Fin 4000 → BitVec 32)
    (HB : Fin 26 → Fin 4000 → EReal) (g : Fin 512)
    (hbp : ∀ (t : Fin 26) (k : Fin 4000) (h : t.val < 25), bp t k = bt (nodeOf t k h))
    (hpad : ∀ (t : Fin 26) (k : Fin 4000), ¬ t.val < 25 → bp t k = 4294967295#32)
    (hH : ∀ (t : Fin 26) (k : Fin 4000) (h : t.val < 25), HB t k = HR (nodeOf t k h)) :
    (∑ p : Fin 2, ∑ i : Fin 13, ∑ k : Fin 4000,
        (if BitVec.ofNat 32 g.val = bp (tileOf p i) k then (1 : EReal) else 0) * HB (tileOf p i) k)
      = ∑ n ∈ Finset.univ.filter (fun n : Fin 100000 => (bt n).toInt = (g.val : Int)), HR n := by
  have hterm : ∀ (t : Fin 26) (k : Fin 4000),
      (if BitVec.ofNat 32 g.val = bp t k then (1 : EReal) else 0) * HB t k
        = if BitVec.ofNat 32 g.val = bp t k then HB t k else 0 := by
    intro t k
    split_ifs
    · exact one_mul _
    · exact zero_mul _
  have h1 : (∑ p : Fin 2, ∑ i : Fin 13, ∑ k : Fin 4000,
        (if BitVec.ofNat 32 g.val = bp (tileOf p i) k then (1 : EReal) else 0) * HB (tileOf p i) k)
      = ∑ t : Fin 26, ∑ k : Fin 4000, (if BitVec.ofNat 32 g.val = bp t k then HB t k else 0) := by
    simp only [hterm]
    exact sum_fin_mul 2 13 26 rfl
      (fun t => ∑ k : Fin 4000, (if BitVec.ofNat 32 g.val = bp t k then HB t k else 0))
      (fun a b => by have := a.isLt; have := b.isLt; omega)
  rw [h1, Fin.sum_univ_castSucc]
  have hlast : (∑ k : Fin 4000,
      (if BitVec.ofNat 32 g.val = bp (Fin.last 25) k then HB (Fin.last 25) k else 0)) = 0 := by
    apply Finset.sum_eq_zero
    intro k _
    rw [hpad (Fin.last 25) k (by simp), if_neg (ofNat_ne_pad g)]
  rw [hlast, add_zero]
  have h2 : ∀ (t : Fin 25) (k : Fin 4000),
      (if BitVec.ofNat 32 g.val = bp t.castSucc k then HB t.castSucc k else 0)
        = (fun n : Fin 100000 => if (bt n).toInt = (g.val : Int) then HR n else 0)
            ⟨4000 * t.val + k.val, by have := t.isLt; have := k.isLt; omega⟩ := by
    intro t k
    have ht : (t.castSucc : Fin 26).val < 25 := by simp
    rw [hbp _ k ht, hH _ k ht]
    simp only [ofNat_eq_iff]
    rfl
  simp only [h2]
  rw [Finset.sum_filter]
  exact sum_fin_mul 25 4000 100000 rfl
    (fun n : Fin 100000 => if (bt n).toInt = (g.val : Int) then HR n else 0)
    (fun a b => by have := a.isLt; have := b.isLt; omega)

end Cert.Gin

end
-- ==== Proof.KValue.lean ====
/-
  The kernel's result, read.

  Each half p writes back, at its last tile, the sum of its 13 tiles' contributions as block p of the 2 × 512 × 128 output
  array; the two blocks cover the array. The host then adds the two halves, multiplies by the final weight column and adds
  the final bias. A tile's contribution at graph g is the sum of the hidden rows of its nodes whose graph id is g, so the
  two halves together hold, for every graph, the sum of the hidden rows of all its nodes: the pooled array.
-/
import proofs.«424827_j23210003268004_3_alg».proof.Proof.KInv
import proofs.«424827_j23210003268004_3_alg».proof.Proof.KPartial
import proofs.«424827_j23210003268004_3_alg».proof.Proof.KBlocks
import proofs.«424827_j23210003268004_3_alg».proof.Proof.Pooling
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Gin

open Cert.KernelIdeal Cert.KernelIdeal.Gen Idealize.ShloMosaic Idealize.ShloMosaic.TcCoe Idealize.ShloMosaic.ValueIdx
  Idealize.SL.Sem
open Idealize.ShloMosaic.Pipeline (Dat)

variable (m : (ℓ : Loc nD τ sig) → Buf (Elt Ideal) ℓ) (ρ : Dev nD → PrngReg)

/-- The output array after the run: block p holds the sum of half p's 13 contributions. -/
def outArr (c : Dev nD) : S2x512x128.Idx → EReal := fun j =>
  ∑ i ∈ Finset.range 13, partN m c (13 * (j 0).val + i)
    (ix2 (⟨(j 1).val, (j 1).isLt⟩ : Fin 512) (⟨(j 2).val, (j 2).isLt⟩ : Fin 128))

/-- The accumulator copied out as a 1 × 512 × 128 block, entry by entry. -/
theorem pay2_apply (A : S512x128.Idx → EReal) (y : S1x512x128.Idx) :
    k0_pay2 (F := Ideal) A y = A (ix2 (⟨(y 1).val, (y 1).isLt⟩ : Fin 512) (⟨(y 2).val, (y 2).isLt⟩ : Fin 128)) := by
  unfold k0_pay2
  have hy : y = ix3 (⟨(y 0).val, (y 0).isLt⟩ : Fin 1) (⟨(y 1).val, (y 1).isLt⟩ : Fin 512) (⟨(y 2).val, (y 2).isLt⟩ : Fin 128) := by
    funext a
    match a with
    | ⟨0, _⟩ => rfl
    | ⟨1, _⟩ => rfl
    | ⟨2, _⟩ => rfl
  rw [hy]
  exact shapeCast_ab_1ab_apply A _ _ _ _

/-- The output window's block index at point t: the half t belongs to, on the first axis. -/
theorem idx7 : ∀ t : Fin cfg0.N, win0_7.index t (0 : Fin 3) = t.val / 13 ∧ win0_7.index t (1 : Fin 3) = 0
    ∧ win0_7.index t (2 : Fin 3) = 0 :=
  (by decide +kernel : ∀ t : Fin grid0.N, _)

/-- What the last tile of a half writes back is that half's block of `outArr`. -/
theorem flushed_eq (c : Dev nD) (t : Fin cfg0.N) (hf : (cfg0.win 7).flush t = true) :
    (dats m 0 c).flushed 7 t = ((cfg0.win 7).blk t).view.read (Elt Ideal) (outArr m c) := by
  have h12 : t.val % 13 = 12 := (flush0_7 t).mp hf
  obtain ⟨e0, e1, e2⟩ := idx7 t
  show (cfg0.win 7).cut (grid0.coords t) ((dats m 0 c).after 7 t) = _
  rw [after0_7, out_eq m c t h12]
  funext y
  show k0_pay2 (acc m c t.val t.isLt) y = outArr m c (((cfg0.win 7).blk t).view.emb y)
  refine (pay2_apply _ y).trans ?_
  rw [acc_apply m c t.val t.isLt]
  unfold outArr
  have hy0 : (y 0).val < 1 := (y 0).isLt
  have c0 : ((((cfg0.win 7).blk t).view.emb y) 0).val = t.val / 13 := by
    show win0_7.index t (0 : Fin 3) * 1 + 1 * (y 0).val = _
    rw [e0]; omega
  have c1 : ((((cfg0.win 7).blk t).view.emb y) 1).val = (y 1).val := by
    show win0_7.index t (1 : Fin 3) * 512 + 1 * (y 1).val = _
    rw [e1]; omega
  have c2 : ((((cfg0.win 7).blk t).view.emb y) 2).val = (y 2).val := by
    show win0_7.index t (2 : Fin 3) * 128 + 1 * (y 2).val = _
    rw [e2]; omega
  rw [h12]
  refine Finset.sum_congr rfl fun i _ => ?_
  have ea : t.val - 12 + i = 13 * ((((cfg0.win 7).blk t).view.emb y) 0).val + i := by rw [c0]; omega
  rw [ea]
  congr 2
  · exact Fin.ext c1.symm
  · exact Fin.ext c2.symm

/-- Every entry of the output array lies in the block one of the two halves writes back. -/
theorem out_cover (i : S2x512x128.Idx) :
    ∃ t : Fin cfg0.N, (cfg0.win 7).flush t = true ∧ i ∈ ((cfg0.win 7).blk t).view.set := by
  have hi0 : (i 0).val < 2 := (i 0).isLt
  have hi1 : (i 1).val < 512 := (i 1).isLt
  have hi2 : (i 2).val < 128 := (i 2).isLt
  let t : Fin cfg0.N := ⟨13 * (i 0).val + 12, by rw [show cfg0.N = 26 from N_0]; omega⟩
  have ht : t.val = 13 * (i 0).val + 12 := rfl
  obtain ⟨e0, e1, e2⟩ := idx7 t
  refine ⟨t, (flush0_7 t).mpr (by rw [ht]; omega), ?_⟩
  show i ∈ ((View.whole main_v18).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    rw [e0, ht]; omega
  | ⟨1, _⟩ =>
    show win0_7.index t (1 : Fin 3) * 512 ≤ (i 1).val ∧ (i 1).val < win0_7.index t (1 : Fin 3) * 512 + 512
    rw [e1]; omega
  | ⟨2, _⟩ =>
    show win0_7.index t (2 : Fin 3) * 128 ≤ (i 2).val ∧ (i 2).val < win0_7.index t (2 : Fin 3) * 128 + 128
    rw [e2]; omega

/-- So the output array ends holding `outArr`. -/
theorem final_out (c : Dev nD) : (dats m 0 c).arrAt 7 cfg0.N = outArr m c :=
  (dats m 0 c).arrAt_eq_of_cover 7 (outArr m c) (flushed_eq m c) out_cover

/-! ## The host operations after the region -/

/-- The kernel program's result: the two halves added, times the final weight column, plus the final bias. -/
def resultK (c : Dev nD) : FVec Ideal S512x1 .f32 :=
  addf (F := Ideal) (Host.dotGeneral (φ₁ := .f32) (φ₂ := .f32) dot_S512x128_S128x1_S512x1_1_0_0_1_n_n none
      (Host.reduceAdd (outArr m c) (constant S_ .f32 0x00000000#32) reducesTo_S2x512x128_S512x128_d0 h_S_)
      (m ((c : Thread nD τ).loc main_arg7) : FVec Ideal S128x1 .f32))
    (broadcastInDim S512x1 ![0, 1] bcast_S1x1_S512x1_0_1
      (broadcastInDim S1x1 ![1] bcast_S1_S1x1_1 (m ((c : Thread nD τ).loc main_arg8) : FVec Ideal S1 .f32)))

theorem tail_eq (c : Dev nD) :
    Pipeline.afterTail₀ cfgs (dats m) 0 (V0 m) [hostOps1] c main_v23 = resultK m c := by
  unfold Pipeline.afterTail₀
  show StableHlo.after hostOps1 _ (Proc.devRef .tc main_v23) = _
  after_results
  have h18 : Pipeline.withArrays (cfgs 0).spec c (V0 m c) (fun w => (dats m 0 c).arrAt w (cfgs 0).N) (Proc.devRef .tc main_v18)
      = outArr m c :=
    (Pipeline.withArrays_arr spec0 launch0.win.arr_inj c (V0 m c) (fun w => (dats m 0 c).arrAt w cfg0.N) 7).trans (final_out m c)
  have h7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans
      (V_main_arg7 m c)
  have h8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans
      (V_main_arg8 m c)
  rw [h18, h7, h8]
  rfl

/-- The run, read: the result at `resultK`, the arguments unchanged. -/
theorem run : θ_run defs (onTc (τ := τ) (main (F := Ideal))) ⟨m, fun _ => 0, ρ⟩ fun r => ∀ c : Dev nD,
      r.2.mem ((c : Thread nD τ).loc main_v23) = resultK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨((h c).2 main_v23 (Pipeline.mem_restRefs_of main_v23 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

/-! ## The pooled array -/

/-- The argument arrays, as functions into the extended reals. -/
abbrev aX (c : Dev nD) : (⟨2, ![100000, 64]⟩ : Shape).Idx → EReal := m ((c : Thread nD τ).loc main_arg0)
abbrev aW1 (c : Dev nD) : (⟨2, ![64, 128]⟩ : Shape).Idx → EReal := m ((c : Thread nD τ).loc main_arg3)
abbrev aB1 (c : Dev nD) : (⟨1, ![128]⟩ : Shape).Idx → EReal := m ((c : Thread nD τ).loc main_arg4)
abbrev aW2 (c : Dev nD) : (⟨2, ![128, 128]⟩ : Shape).Idx → EReal := m ((c : Thread nD τ).loc main_arg5)
abbrev aB2 (c : Dev nD) : (⟨1, ![128]⟩ : Shape).Idx → EReal := m ((c : Thread nD τ).loc main_arg6)
abbrev aBt (c : Dev nD) : (⟨1, ![100000]⟩ : Shape).Idx → BitVec 32 := m ((c : Thread nD τ).loc main_arg2)
/-- The gathered rows and the destination words, as the region finds them. -/
abbrev aG (c : Dev nD) : (⟨2, ![1200000, 64]⟩ : Shape).Idx → EReal := V m c main_v10
abbrev aD (c : Dev nD) : IVec ⟨2, ![1200000, 1]⟩ 32 := V m c main_v12
/-- The feature block and the neighbour-sum block of point t. -/
abbrev bX (c : Dev nD) (t : Fin cfg0.N) : (⟨2, ![4000, 64]⟩ : Shape).Idx → EReal := iblk m c 0 t
abbrev bA (c : Dev nD) (t : Fin cfg0.N) : (⟨2, ![4000, 64]⟩ : Shape).Idx → EReal := iblk m c 1 t

/-- Row k of tile t, hidden value at column q: the perceptron of the feature row (tile index capped at 24) plus the
    neighbour sum of row 4000 t + k. -/
def HBk (c : Dev nD) (q : Fin 128) (t : Fin 26) (k : Fin 4000) : EReal :=
  Cert.Gin.mlpRow (aW1 m c) (fun j => aB1 m c (ix1 j)) (aW2 m c) (fun j => aB2 m c (ix1 j))
    (fun a => aX m c (ix2 (⟨4000 * min t.val 24 + k.val, by have := k.isLt; omega⟩ : Fin 100000) a)
      + Cert.Gin.aggAt (aG m c) (aD m c) (4000 * t.val + k.val) a) q

/-- A tile's contribution at (g, q): the one-hot of the tile's graph ids against g, times the rows' hidden values. -/
theorem part_apply (c : Dev nD) (t : Fin cfg0.N) (g : Fin 512) (q : Fin 128) :
    part m c t (ix2 g q)
      = ∑ k : Fin 4000, (if BitVec.ofNat 32 g.val = V m c main_v15 (ix3 (tileIx t) (0 : Fin 1) k) then (1 : EReal) else 0)
          * HBk m c q (tileIx t) k := by
  refine (partial_apply (iblk m c 0 t) (iblk m c 1 t) (iblk m c 2 t) (iblk m c 3 t) (iblk m c 4 t) (iblk m c 5 t)
    (iblk m c 6 t) g q).trans ?_
  refine Finset.sum_congr rfl fun k _ => ?_
  rw [iblk2_apply m c t k, iblk3_eq m c t, iblk4_eq m c t, iblk5_eq m c t, iblk6_eq m c t]
  have hb1 : (fun j : Fin 128 => V m c main_v16 (ix2 (0 : Fin 1) j)) = fun j => aB1 m c (ix1 j) :=
    funext (V_v16_apply m c)
  have hb2 : (fun j : Fin 128 => V m c main_v17 (ix2 (0 : Fin 1) j)) = fun j => aB2 m c (ix1 j) :=
    funext (V_v17_apply m c)
  have hy : (fun a : Fin 64 => bX m c t (ix2 k a) + bA m c t (ix2 k a))
      = fun a => aX m c (ix2 (xrowOf t k) a) + Cert.Gin.aggAt (aG m c) (aD m c) (rowOf t k).val a :=
    funext fun a => by
      show bX m c t (ix2 k a) + bA m c t (ix2 k a) = _
      rw [show bX m c t (ix2 k a) = aX m c (ix2 (xrowOf t k) a) from iblk0_apply m c t k a,
        show bA m c t (ix2 k a) = Cert.Gin.aggAt (aG m c) (aD m c) (rowOf t k).val a from
          (iblk1_apply m c t k a).trans (V_v13_apply m c (rowOf t k) a)]
  show _ * Cert.Gin.mlpRow (aW1 m c) (fun j => V m c main_v16 (ix2 (0 : Fin 1) j)) (aW2 m c)
      (fun j => V m c main_v17 (ix2 (0 : Fin 1) j)) (fun a => bX m c t (ix2 k a) + bA m c t (ix2 k a)) q = _
  rw [hb1, hb2, hy]
  rfl

/-- Half p's block of the output at (g, q): the one-hot products of its 13 tiles, summed. -/
theorem outArr_apply (c : Dev nD) (p : Fin 2) (g : Fin 512) (q : Fin 128) :
    outArr m c (ix3 p g q)
      = ∑ i : Fin 13, ∑ k : Fin 4000,
          (if BitVec.ofNat 32 g.val = V m c main_v15 (ix3 (Cert.Gin.tileOf p i) (0 : Fin 1) k) then (1 : EReal) else 0)
            * HBk m c q (Cert.Gin.tileOf p i) k := by
  have hp : p.val < 2 := p.isLt
  unfold outArr
  rw [Finset.sum_range]
  refine Finset.sum_congr rfl fun i _ => ?_
  have hi : i.val < 13 := i.isLt
  have hlt : 13 * p.val + i.val < cfg0.N := by rw [show cfg0.N = 26 from N_0]; omega
  show partN m c (13 * p.val + i.val) (ix2 g q) = _
  rw [partN_of_lt m c _ hlt, part_apply m c ⟨13 * p.val + i.val, hlt⟩ g q]
  rfl

/-- The two halves added by the host: graph g's pooled row at column q, as the specification states it. -/
theorem pooledK_apply (c : Dev nD) (g : Fin 512) (q : Fin 128) :
    Host.reduceAdd (F := Ideal) (outArr m c) (constant S_ .f32 0x00000000#32) reducesTo_S2x512x128_S512x128_d0 h_S_ (ix2 g q)
      = Cert.Gin.pooled (aX m c) (aG m c) (aD m c) (fun n => aBt m c (ix1 n)) (aW1 m c) (fun j => aB1 m c (ix1 j))
          (aW2 m c) (fun j => aB2 m c (ix1 j)) g q := by
  show Ideal.hostReduceAdd reducesTo_S2x512x128_S512x128_d0 (outArr m c) (Ideal.ofBits .f32 0x00000000#32) (ix2 g q) = _
  rw [Ideal.hostReduceAdd_single reducesTo_S2x512x128_S512x128_d0 (by decide : S2x512x128.Reduces [0] S512x128),
    Ideal.ofBits_zero_f32, zero_add]
  show ∑ p : Fin 2, outArr m c (ix3 p g q) = _
  simp only [outArr_apply]
  unfold Cert.Gin.pooled
  refine Cert.Gin.pool_eq (fun n => aBt m c (ix1 n))
    (fun n => Cert.Gin.hRow (aX m c) (aG m c) (aD m c) (aW1 m c) (fun j => aB1 m c (ix1 j)) (aW2 m c)
      (fun j => aB2 m c (ix1 j)) n q)
    (fun t k => V m c main_v15 (ix3 t (0 : Fin 1) k)) (HBk m c q) g ?_ ?_ ?_
  · intro t k h
    have hk : k.val < 4000 := k.isLt
    show V m c main_v15 (ix3 t (0 : Fin 1) k) = _
    rw [V_v15_apply m c t k, dif_pos (by omega : 4000 * t.val + k.val < 100000)]
    rfl
  · intro t k h
    have hk : k.val < 4000 := k.isLt
    show V m c main_v15 (ix3 t (0 : Fin 1) k) = _
    rw [V_v15_apply m c t k, dif_neg (by omega : ¬4000 * t.val + k.val < 100000)]
  · intro t k h
    have hk : k.val < 4000 := k.isLt
    have hmin : min t.val 24 = t.val := Nat.min_eq_left (by omega)
    unfold HBk Cert.Gin.hRow
    have hrow : (⟨4000 * min t.val 24 + k.val, by omega⟩ : Fin 100000) = Cert.Gin.nodeOf t k h :=
      Fin.ext (by show 4000 * min t.val 24 + k.val = 4000 * t.val + k.val; rw [hmin])
    rw [hrow]
    rfl

end Cert.KernelIdeal.Gin

end
-- ==== Proof.RefPooled.lean ====
/-
  The reference's pooled array, read at an entry: graph g, column q holds the sum of the hidden rows of the nodes whose
  graph id, read signed, is g; a node's hidden row is the two-layer perceptron of its feature row plus its neighbour sum.
-/
import proofs.«424827_j23210003268004_3_alg».proof.Proof.Gen.ReferenceIdeal.Read
import proofs.«424827_j23210003268004_3_alg».proof.Proof.Spec
import proofs.«424827_j23210003268004_3_alg».proof.Proof.LibRowScatter
import proofs.«424827_j23210003268004_3_alg».proof.Proof.LibPlainDot

noncomputable section

open scoped BigOperators

namespace Cert.ReferenceIdeal.Gin

open Cert.ReferenceIdeal Cert.ReferenceIdeal.Gen Cert.ReferenceIdeal.Read Idealize.ShloMosaic Idealize.ShloMosaic.ValueIdx

/-- The host's accumulating row scatter, read at an entry, at the ideal values. -/
private theorem host_scatter_row {R C E w : Nat}
    (wf : ScatterDims.WF ⟨2, ![R, C]⟩ ⟨2, ![E, 1]⟩ ⟨2, ![E, C]⟩ [1] [0] [0] 1)
    (x : FVec Ideal ⟨2, ![R, C]⟩ .f32) (idx : IVec ⟨2, ![E, 1]⟩ w) (upd : FVec Ideal ⟨2, ![E, C]⟩ .f32)
    (r : Fin R) (a : Fin C) :
    Host.scatterAdd (F := Ideal) (Cert.LibRowScatter.rowDims R C E wf) x idx upd (ix2 r a)
      = x (ix2 r a) + ∑ e ∈ Finset.univ.filter (fun e : Fin E => (idx (ix2 e (0 : Fin 1))).toInt = (r.val : Int)),
          upd (ix2 e a) :=
  Cert.LibRowScatter.scatterAdd_row_apply wf x idx upd r a

/-- The neighbour-sum array at an entry: zero plus the gathered rows summed over the edges that point at the node. -/
private theorem agg_apply (x0 : (⟨S100000x64, .f32⟩ : BufTy).Contents (Elt Ideal))
    (x1 : (⟨S2x1200000, .i32⟩ : BufTy).Contents (Elt Ideal)) (n : Fin 100000) (a : Fin 64) :
    val_main_v13 (F := Ideal) x0 x1 (ix2 n a)
      = Cert.Gin.aggAt (val_main_v10 (F := Ideal) x0 x1) (val_main_v12 (F := Ideal) x1) n.val a := by
  have h := host_scatter_row (R := 100000) (C := 64) (E := 1200000)
    scatter_S100000x64_S1200000x1_S1200000x64_1_0_0_1_wf (val_main_v11 (F := Ideal)) (val_main_v12 (F := Ideal) x1)
    (val_main_v10 (F := Ideal) x0 x1) n a
  refine Eq.trans h ?_
  rw [val_main_v11_apply, val_main_cst_apply]
  unfold Cert.Gin.aggAt
  exact (congrArg (· + _) Ideal.ofBits_zero_f32).trans (zero_add _)

/-- A node's hidden row, read at a column, is the two-layer perceptron of its feature row plus its neighbour sum. -/
private theorem hidden_apply (x0 : (⟨S100000x64, .f32⟩ : BufTy).Contents (Elt Ideal))
    (x1 : (⟨S2x1200000, .i32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (n : Fin 100000) (q : Fin 128) :
    val_main_v23 (F := Ideal) x0 x1 x3 x4 x5 x6 (ix2 n q)
      = Cert.Gin.hRow x0 (val_main_v10 (F := Ideal) x0 x1) (val_main_v12 (F := Ideal) x1) x3 (fun j => x4 (ix1 j)) x5
          (fun j => x6 (ix1 j)) n q := by
  rw [val_main_v23_apply, val_main_v20_apply, val_main_v22_apply, val_main_v21_apply]
  have hb2 : idx_main_v21 (idx_main_v22 (ix2 n q)) = ix1 q :=
    funext fun a => Fin.ext (by match a with | ⟨0, _⟩ => rfl)
  rw [hb2, Ideal.addf_def]
  unfold Cert.Gin.hRow Cert.Gin.mlpRow
  refine congrArg (· + x6 (ix1 q)) (Finset.sum_congr rfl fun k _ => ?_)
  have hl : lidx_main_v20 (ix2 n q) k = ix2 n k :=
    funext fun a => Fin.ext (by match a with | ⟨0, _⟩ => rfl | ⟨1, _⟩ => rfl)
  have hr : ridx_main_v20 (ix2 n q) k = ix2 k q :=
    funext fun a => Fin.ext (by match a with | ⟨0, _⟩ => rfl | ⟨1, _⟩ => rfl)
  have hb1 : idx_main_v16 (idx_main_v17 (ix2 n k)) = ix1 k :=
    funext fun a => Fin.ext (by match a with | ⟨0, _⟩ => rfl)
  rw [hl, hr, val_main_v19_apply, val_main_v18_apply, val_main_v15_apply, val_main_v17_apply, val_main_v16_apply,
    val_main_call0_v0_apply, val_main_call0_cst_apply, Ideal.maximumf_def, Ideal.addf_def, hb1]
  refine congrArg (fun t => max (t + x4 (ix1 k)) Cert.Gin.zeroF * x5 (ix2 k q)) (Finset.sum_congr rfl fun a _ => ?_)
  have hl' : lidx_main_v15 (ix2 n k) a = ix2 n a :=
    funext fun b => Fin.ext (by match b with | ⟨0, _⟩ => rfl | ⟨1, _⟩ => rfl)
  have hr' : ridx_main_v15 (ix2 n k) a = ix2 a k :=
    funext fun b => Fin.ext (by match b with | ⟨0, _⟩ => rfl | ⟨1, _⟩ => rfl)
  rw [hl', hr', val_main_v14_apply, Ideal.addf_def, agg_apply]

theorem ref_pooled (x0 : (⟨S100000x64, .f32⟩ : BufTy).Contents (Elt Ideal)) (x1 : (⟨S2x1200000, .i32⟩ : BufTy).Contents (Elt Ideal))
    (x2 : (⟨S100000, .i32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (g : Fin 512) (q : Fin 128) :
    val_main_v26 (F := Ideal) x0 x1 x2 x3 x4 x5 x6 (ix2 g q)
      = Cert.Gin.pooled x0 (val_main_v10 (F := Ideal) x0 x1) (val_main_v12 (F := Ideal) x1) (fun n => x2 (ix1 n)) x3
          (fun j => x4 (ix1 j)) x5 (fun j => x6 (ix1 j)) g q := by
  have h := host_scatter_row (R := 512) (C := 128) (E := 100000)
    scatter_S512x128_S100000x1_S100000x128_1_0_0_1_wf (val_main_v24 (F := Ideal)) (val_main_v25 (F := Ideal) x2)
    (val_main_v23 (F := Ideal) x0 x1 x3 x4 x5 x6) g q
  refine Eq.trans h ?_
  rw [val_main_v24_apply, val_main_cst_1_apply]
  refine ((congrArg (· + _) Ideal.ofBits_zero_f32).trans (zero_add _)).trans ?_
  unfold Cert.Gin.pooled
  have hf : ∀ n : Fin 100000, val_main_v25 (F := Ideal) x2 (ix2 n (0 : Fin 1)) = x2 (ix1 n) := by
    intro n
    rw [val_main_v25_apply]
    exact congrArg x2 (funext fun a => Fin.ext (by match a with | ⟨0, _⟩ => rfl))
  simp only [hf]
  exact Finset.sum_congr rfl fun n _ => hidden_apply x0 x1 x3 x4 x5 x6 n q

end Cert.ReferenceIdeal.Gin

end
-- ==== Proof.lean ====
/-
  The certificate: a graph-isomorphism layer with sum pooling, as one tiled kernel against its plain reference.

  Both programs gather the feature rows along the edges and sum them per destination node with the same host operations;
  the kernel sums into 104000 rows, the reference into 100000, and a destination outside 0 … 99999 changes nothing the
  kernel later reads under a real graph id. The reference then applies the two-layer perceptron to every node and sums
  the hidden rows per graph id. The kernel does the same 4000 nodes at a time: per tile it multiplies the one-hot matrix
  of the tile's graph ids by the tile's hidden rows and adds the product into an accumulator, one accumulator per half
  of the 26 tiles; the 26th tile carries the id −1 on every row, so its product is zero whatever its rows hold (zero
  times any extended real is zero). The host adds the two halves. Over the extended reals a finite sum does not depend
  on its order or grouping, so both programs hold, for every graph, the sum of the hidden rows of its nodes, and the
  same final product with the weight column and bias follows. No step uses finiteness of the inputs.

  The three frames are the generated ones (the reference's is its generated run with the result dropped); the ideal
  pass rewrote nothing, so the idealization claim is trivial.
-/
import proofs.«424827_j23210003268004_3_alg».proof.Defs
import proofs.«424827_j23210003268004_3_alg».proof.Proof.Gen.Kernel
import proofs.«424827_j23210003268004_3_alg».proof.Proof.Gen.Kernel.Frame
import proofs.«424827_j23210003268004_3_alg».proof.Proof.Gen.KernelIdeal
import proofs.«424827_j23210003268004_3_alg».proof.Proof.Gen.KernelIdeal.Frame
import proofs.«424827_j23210003268004_3_alg».proof.Proof.Gen.ReferenceIdeal
import proofs.«424827_j23210003268004_3_alg».proof.Proof.Gen.ReferenceIdeal.Run
import proofs.«424827_j23210003268004_3_alg».proof.Proof.Gen.ReferenceIdeal.Read
import proofs.«424827_j23210003268004_3_alg».proof.Proof.Gen.Pre_finite_inputs
import proofs.«424827_j23210003268004_3_alg».proof.Proof.KValue
import proofs.«424827_j23210003268004_3_alg».proof.Proof.RefPooled
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's pooled array of arguments that agree with the kernel's is the kernel's two halves added. -/
theorem pooled_agree (m : (ℓ : Loc Cert.KernelIdeal.nD Cert.KernelIdeal.τ Cert.KernelIdeal.sig) → Buf (Elt Ideal) ℓ)
    (c : Dev Cert.KernelIdeal.nD) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Host.reduceAdd (F := Ideal) (Cert.KernelIdeal.Gin.outArr m c) (constant Cert.KernelIdeal.S_ .f32 0x00000000#32)
          Cert.KernelIdeal.Facts₀.reducesTo_S2x512x128_S512x128_d0 Cert.KernelIdeal.Facts₀.h_S_ := by
  funext j
  obtain ⟨g, q, rfl⟩ : ∃ (g : Fin 512) (q : Fin 128), j = ix2 g q := ⟨j 0, j 1, eq_ix2 j⟩
  rw [Cert.ReferenceIdeal.Gin.ref_pooled, Cert.KernelIdeal.Gin.pooledK_apply m c g q]
  show Cert.Gin.pooled _ _ _ _ _ _ _ _ g q
      = Cert.Gin.pooled _ (Cert.KernelIdeal.Gen.V m c Cert.KernelIdeal.main_v10) (Cert.KernelIdeal.Gen.V m c Cert.KernelIdeal.main_v12) _ _ _ _ _ g q
  rw [Cert.KernelIdeal.Gin.V_v10 m c, Cert.KernelIdeal.Gin.V_v12 m c]

theorem algebraic : Cert.algebraic_KernelIdeal_ReferenceIdeal := by
  intro m ρ m' ρ' _ hagree
  refine ⟨fun c => Cert.KernelIdeal.Gin.resultK m c, Cert.KernelIdeal.Gin.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v30_eq, a0, a1, a2, a3, a4, a5, a6, a7, a8]
  show addf (F := Ideal) (Host.dotGeneral _ none (Cert.ReferenceIdeal.Read.val_main_v26 (F := Ideal) _ _ _ _ _ _ _) _) _
      = Cert.KernelIdeal.Gin.resultK m c
  rw [pooled_agree m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
